-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S100x32 : Shape := ⟨2, ![100, 32]⟩
abbrev S100x32x16 : Shape := ⟨3, ![100, 32, 16]⟩
abbrev S100x16 : Shape := ⟨2, ![100, 16]⟩
abbrev S100x16x8 : Shape := ⟨3, ![100, 16, 8]⟩
abbrev S100x8 : Shape := ⟨2, ![100, 8]⟩
abbrev S100x8x8 : Shape := ⟨3, ![100, 8, 8]⟩
abbrev S100x8x16 : Shape := ⟨3, ![100, 8, 16]⟩
abbrev S100x16x32 : Shape := ⟨3, ![100, 16, 32]⟩
abbrev S100x32x256 : Shape := ⟨3, ![100, 32, 256]⟩
abbrev S100x256 : Shape := ⟨2, ![100, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S100x32x16 : S_.BroadcastsInDim S100x32x16 (![] : Fin 0 → Fin S100x32x16.rank)
  reducesTo_S100x32x16_S_d0_1_2 : S100x32x16.ReducesTo [0, 1, 2] S_
  bcast_S_S100x16 : S_.BroadcastsInDim S100x16 (![] : Fin 0 → Fin S100x16.rank)
  reducesTo_S100x16_S_d0_1 : S100x16.ReducesTo [0, 1] S_
  bcast_S_S100x16x8 : S_.BroadcastsInDim S100x16x8 (![] : Fin 0 → Fin S100x16x8.rank)
  reducesTo_S100x16x8_S_d0_1_2 : S100x16x8.ReducesTo [0, 1, 2] S_
  bcast_S_S100x8 : S_.BroadcastsInDim S100x8 (![] : Fin 0 → Fin S100x8.rank)
  reducesTo_S100x8_S_d0_1 : S100x8.ReducesTo [0, 1] S_
  bcast_S_S100x8x8 : S_.BroadcastsInDim S100x8x8 (![] : Fin 0 → Fin S100x8x8.rank)
  reducesTo_S100x8x8_S_d0_1_2 : S100x8x8.ReducesTo [0, 1, 2] S_
  bcast_S_S100x8x16 : S_.BroadcastsInDim S100x8x16 (![] : Fin 0 → Fin S100x8x16.rank)
  reducesTo_S100x8x16_S_d0_1_2 : S100x8x16.ReducesTo [0, 1, 2] S_
  bcast_S_S100x16x32 : S_.BroadcastsInDim S100x16x32 (![] : Fin 0 → Fin S100x16x32.rank)
  reducesTo_S100x16x32_S_d0_1_2 : S100x16x32.ReducesTo [0, 1, 2] S_
  bcast_S_S100x32 : S_.BroadcastsInDim S100x32 (![] : Fin 0 → Fin S100x32.rank)
  reducesTo_S100x32_S_d0_1 : S100x32.ReducesTo [0, 1] S_
  bcast_S_S100x32x256 : S_.BroadcastsInDim S100x32x256 (![] : Fin 0 → Fin S100x32x256.rank)
  reducesTo_S100x32x256_S_d0_1_2 : S100x32x256.ReducesTo [0, 1, 2] S_
  bcast_S_S100x256 : S_.BroadcastsInDim S100x256 (![] : Fin 0 → Fin S100x256.rank)
  reducesTo_S100x256_S_d0_1 : S100x256.ReducesTo [0, 1] S_

variable [Facts]

def fn_part3 {F : FTy → Type} [FloatOps F] (main_arg12 : FVec F S100x32x256 .f32) (main_arg13 : FVec F S100x256 .f32) (main_v48 : IVec S_ 1) (main_v49 : FVec F S100x32 .f32) (main_v50 : FVec F S100x32 .f32) : IVec S_ 1 :=
  let main_v51 : IVec S100x32 1 := cmpf .olt main_v49 main_v50
  let main_c_19 : IVec S_ 1 := constantI S_ 1 1#1
  let main_v52 : IVec S_ 1 := (fun x v => Host.reduce IntOp.andi x v reducesTo_S100x32_S_d0_1 h_S_) main_v51 main_c_19
  let main_v53 : IVec S_ 1 := andi main_v48 main_v52
  let main_v54 : FVec F S100x32x256 .f32 := Host.absf main_arg12
  let main_cst_20 : FVec F S_ .f32 := constant S_ .f32 0x7F800000#32
  let main_v55 : FVec F S100x32x256 .f32 := broadcastInDim S100x32x256 ![] bcast_S_S100x32x256 main_cst_20
  let main_v56 : IVec S100x32x256 1 := cmpf .olt main_v54 main_v55
  let main_c_21 : IVec S_ 1 := constantI S_ 1 1#1
  let main_v57 : IVec S_ 1 := (fun x v => Host.reduce IntOp.andi x v reducesTo_S100x32x256_S_d0_1_2 h_S_) main_v56 main_c_21
  let main_v58 : IVec S_ 1 := andi main_v53 main_v57
  let main_v59 : FVec F S100x256 .f32 := Host.absf main_arg13
  let main_cst_22 : FVec F S_ .f32 := constant S_ .f32 0x7F800000#32
  let main_v60 : FVec F S100x256 .f32 := broadcastInDim S100x256 ![] bcast_S_S100x256 main_cst_22
  let main_v61 : IVec S100x256 1 := cmpf .olt main_v59 main_v60
  let main_c_23 : IVec S_ 1 := constantI S_ 1 1#1
  let main_v62 : IVec S_ 1 := (fun x v => Host.reduce IntOp.andi x v reducesTo_S100x256_S_d0_1 h_S_) main_v61 main_c_23
  let main_v63 : IVec S_ 1 := andi main_v58 main_v62
  main_v63

def fn_part2 {F : FTy → Type} [FloatOps F] (main_arg8 : FVec F S100x8x16 .f32) (main_arg9 : FVec F S100x16 .f32) (main_arg10 : FVec F S100x16x32 .f32) (main_arg11 : FVec F S100x32 .f32) (main_arg12 : FVec F S100x32x256 .f32) (main_arg13 : FVec F S100x256 .f32) (main_v33 : IVec S_ 1) : IVec S_ 1 :=
  let main_v34 : FVec F S100x8x16 .f32 := Host.absf main_arg8
  let main_cst_12 : FVec F S_ .f32 := constant S_ .f32 0x7F800000#32
  let main_v35 : FVec F S100x8x16 .f32 := broadcastInDim S100x8x16 ![] bcast_S_S100x8x16 main_cst_12
  let main_v36 : IVec S100x8x16 1 := cmpf .olt main_v34 main_v35
  let main_c_13 : IVec S_ 1 := constantI S_ 1 1#1
  let main_v37 : IVec S_ 1 := (fun x v => Host.reduce IntOp.andi x v reducesTo_S100x8x16_S_d0_1_2 h_S_) main_v36 main_c_13
  let main_v38 : IVec S_ 1 := andi main_v33 main_v37
  let main_v39 : FVec F S100x16 .f32 := Host.absf main_arg9
  let main_cst_14 : FVec F S_ .f32 := constant S_ .f32 0x7F800000#32
  let main_v40 : FVec F S100x16 .f32 := broadcastInDim S100x16 ![] bcast_S_S100x16 main_cst_14
  let main_v41 : IVec S100x16 1 := cmpf .olt main_v39 main_v40
  let main_c_15 : IVec S_ 1 := constantI S_ 1 1#1
  let main_v42 : IVec S_ 1 := (fun x v => Host.reduce IntOp.andi x v reducesTo_S100x16_S_d0_1 h_S_) main_v41 main_c_15
  let main_v43 : IVec S_ 1 := andi main_v38 main_v42
  let main_v44 : FVec F S100x16x32 .f32 := Host.absf main_arg10
  let main_cst_16 : FVec F S_ .f32 := constant S_ .f32 0x7F800000#32
  let main_v45 : FVec F S100x16x32 .f32 := broadcastInDim S100x16x32 ![] bcast_S_S100x16x32 main_cst_16
  let main_v46 : IVec S100x16x32 1 := cmpf .olt main_v44 main_v45
  let main_c_17 : IVec S_ 1 := constantI S_ 1 1#1
  let main_v47 : IVec S_ 1 := (fun x v => Host.reduce IntOp.andi x v reducesTo_S100x16x32_S_d0_1_2 h_S_) main_v46 main_c_17
  let main_v48 : IVec S_ 1 := andi main_v43 main_v47
  let main_v49 : FVec F S100x32 .f32 := Host.absf main_arg11
  let main_cst_18 : FVec F S_ .f32 := constant S_ .f32 0x7F800000#32
  let main_v50 : FVec F S100x32 .f32 := broadcastInDim S100x32 ![] bcast_S_S100x32 main_cst_18
  fn_part3 (F := F) main_arg12 main_arg13 main_v48 main_v49 main_v50

def fn_part1 {F : FTy → Type} [FloatOps F] (main_arg5 : FVec F S100x8 .f32) (main_arg6 : FVec F S100x8x8 .f32) (main_arg7 : FVec F S100x8 .f32) (main_arg8 : FVec F S100x8x16 .f32) (main_arg9 : FVec F S100x16 .f32) (main_arg10 : FVec F S100x16x32 .f32) (main_arg11 : FVec F S100x32 .f32) (main_arg12 : FVec F S100x32x256 .f32) (main_arg13 : FVec F S100x256 .f32) (main_v13 : IVec S_ 1) (main_v16 : IVec S100x16x8 1) : IVec S_ 1 :=
  let main_c_5 : IVec S_ 1 := constantI S_ 1 1#1
  let main_v17 : IVec S_ 1 := (fun x v => Host.reduce IntOp.andi x v reducesTo_S100x16x8_S_d0_1_2 h_S_) main_v16 main_c_5
  let main_v18 : IVec S_ 1 := andi main_v13 main_v17
  let main_v19 : FVec F S100x8 .f32 := Host.absf main_arg5
  let main_cst_6 : FVec F S_ .f32 := constant S_ .f32 0x7F800000#32
  let main_v20 : FVec F S100x8 .f32 := broadcastInDim S100x8 ![] bcast_S_S100x8 main_cst_6
  let main_v21 : IVec S100x8 1 := cmpf .olt main_v19 main_v20
  let main_c_7 : IVec S_ 1 := constantI S_ 1 1#1
  let main_v22 : IVec S_ 1 := (fun x v => Host.reduce IntOp.andi x v reducesTo_S100x8_S_d0_1 h_S_) main_v21 main_c_7
  let main_v23 : IVec S_ 1 := andi main_v18 main_v22
  let main_v24 : FVec F S100x8x8 .f32 := Host.absf main_arg6
  let main_cst_8 : FVec F S_ .f32 := constant S_ .f32 0x7F800000#32
  let main_v25 : FVec F S100x8x8 .f32 := broadcastInDim S100x8x8 ![] bcast_S_S100x8x8 main_cst_8
  let main_v26 : IVec S100x8x8 1 := cmpf .olt main_v24 main_v25
  let main_c_9 : IVec S_ 1 := constantI S_ 1 1#1
  let main_v27 : IVec S_ 1 := (fun x v => Host.reduce IntOp.andi x v reducesTo_S100x8x8_S_d0_1_2 h_S_) main_v26 main_c_9
  let main_v28 : IVec S_ 1 := andi main_v23 main_v27
  let main_v29 : FVec F S100x8 .f32 := Host.absf main_arg7
  let main_cst_10 : FVec F S_ .f32 := constant S_ .f32 0x7F800000#32
  let main_v30 : FVec F S100x8 .f32 := broadcastInDim S100x8 ![] bcast_S_S100x8 main_cst_10
  let main_v31 : IVec S100x8 1 := cmpf .olt main_v29 main_v30
  let main_c_11 : IVec S_ 1 := constantI S_ 1 1#1
  let main_v32 : IVec S_ 1 := (fun x v => Host.reduce IntOp.andi x v reducesTo_S100x8_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S4096x256 .f32) (main_arg1 : IVec S100x32 32) (main_arg2 : FVec F S100x32x16 .f32) (main_arg3 : FVec F S100x16 .f32) (main_arg4 : FVec F S100x16x8 .f32) (main_arg5 : FVec F S100x8 .f32) (main_arg6 : FVec F S100x8x8 .f32) (main_arg7 : FVec F S100x8 .f32) (main_arg8 : FVec F S100x8x16 .f32) (main_arg9 : FVec F S100x16 .f32) (main_arg10 : FVec F S100x16x32 .f32) (main_arg11 : FVec F S100x32 .f32) (main_arg12 : FVec F S100x32x256 .f32) (main_arg13 : FVec F S100x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S100x32x16 .f32 := Host.absf main_arg2
  let main_cst_0 : FVec F S_ .f32 := constant S_ .f32 0x7F800000#32
  let main_v5 : FVec F S100x32x16 .f32 := broadcastInDim S100x32x16 ![] bcast_S_S100x32x16 main_cst_0
  let main_v6 : IVec S100x32x16 1 := cmpf .olt main_v4 main_v5
  let main_c_1 : IVec S_ 1 := constantI S_ 1 1#1
  let main_v7 : IVec S_ 1 := (fun x v => Host.reduce IntOp.andi x v reducesTo_S100x32x16_S_d0_1_2 h_S_) main_v6 main_c_1
  let main_v8 : IVec S_ 1 := andi main_v3 main_v7
  let main_v9 : FVec F S100x16 .f32 := Host.absf main_arg3
  let main_cst_2 : FVec F S_ .f32 := constant S_ .f32 0x7F800000#32
  let main_v10 : FVec F S100x16 .f32 := broadcastInDim S100x16 ![] bcast_S_S100x16 main_cst_2
  let main_v11 : IVec S100x16 1 := cmpf .olt main_v9 main_v10
  let main_c_3 : IVec S_ 1 := constantI S_ 1 1#1
  let main_v12 : IVec S_ 1 := (fun x v => Host.reduce IntOp.andi x v reducesTo_S100x16_S_d0_1 h_S_) main_v11 main_c_3
  let main_v13 : IVec S_ 1 := andi main_v8 main_v12
  let main_v14 : FVec F S100x16x8 .f32 := Host.absf main_arg4
  let main_cst_4 : FVec F S_ .f32 := constant S_ .f32 0x7F800000#32
  let main_v15 : FVec F S100x16x8 .f32 := broadcastInDim S100x16x8 ![] bcast_S_S100x16x8 main_cst_4
  let main_v16 : IVec S100x16x8 1 := cmpf .olt main_v14 main_v15
  fn_part1 (F := F) main_arg5 main_arg6 main_arg7 main_arg8 main_arg9 main_arg10 main_arg11 main_arg12 main_arg13 main_v13 main_v16
-- ==== Kernel.lean ====
abbrev S4096x256 : Shape := ⟨2, ![4096, 256]⟩
abbrev S100x32 : Shape := ⟨2, ![100, 32]⟩
abbrev S100x32x16 : Shape := ⟨3, ![100, 32, 16]⟩
abbrev S100x16 : Shape := ⟨2, ![100, 16]⟩
abbrev S100x16x8 : Shape := ⟨3, ![100, 16, 8]⟩
abbrev S100x8 : Shape := ⟨2, ![100, 8]⟩
abbrev S100x8x8 : Shape := ⟨3, ![100, 8, 8]⟩
abbrev S100x8x16 : Shape := ⟨3, ![100, 8, 16]⟩
abbrev S100x16x32 : Shape := ⟨3, ![100, 16, 32]⟩
abbrev S100x32x256 : Shape := ⟨3, ![100, 32, 256]⟩
abbrev S100x256 : Shape := ⟨2, ![100, 256]⟩
abbrev S_ : Shape := ⟨0, ![]⟩
abbrev S100x32x1 : Shape := ⟨3, ![100, 32, 1]⟩
abbrev S4096x100x32 : Shape := ⟨3, ![4096, 100, 32]⟩
abbrev S4096x100x1x32 : Shape := ⟨4, ![4096, 100, 1, 32]⟩
abbrev S100x1x16 : Shape := ⟨3, ![100, 1, 16]⟩
abbrev S100x1x8 : Shape := ⟨3, ![100, 1, 8]⟩
abbrev S100x1x32 : Shape := ⟨3, ![100, 1, 32]⟩
abbrev S100x1x256 : Shape := ⟨3, ![100, 1, 256]⟩
abbrev S100x4096x256 : Shape := ⟨3, ![100, 4096, 256]⟩
abbrev S4096x4x1x32 : Shape := ⟨4, ![4096, 4, 1, 32]⟩
abbrev S4x32x16 : Shape := ⟨3, ![4, 32, 16]⟩
abbrev S4x1x16 : Shape := ⟨3, ![4, 1, 16]⟩
abbrev S4x16x8 : Shape := ⟨3, ![4, 16, 8]⟩
abbrev S4x1x8 : Shape := ⟨3, ![4, 1, 8]⟩
abbrev S4x8x8 : Shape := ⟨3, ![4, 8, 8]⟩
abbrev S4x8x16 : Shape := ⟨3, ![4, 8, 16]⟩
abbrev S4x16x32 : Shape := ⟨3, ![4, 16, 32]⟩
abbrev S4x1x32 : Shape := ⟨3, ![4, 1, 32]⟩
abbrev S4x32x256 : Shape := ⟨3, ![4, 32, 256]⟩
abbrev S4x1x256 : Shape := ⟨3, ![4, 1, 256]⟩
abbrev S4x4096x256 : Shape := ⟨3, ![4, 4096, 256]⟩
abbrev S4096x1x1x32 : Shape := ⟨4, ![4096, 1, 1, 32]⟩
abbrev S4096x32 : Shape := ⟨2, ![4096, 32]⟩
abbrev S1x32x16 : Shape := ⟨3, ![1, 32, 16]⟩
abbrev S32x16 : Shape := ⟨2, ![32, 16]⟩
abbrev S4096x16 : Shape := ⟨2, ![4096, 16]⟩
abbrev S1x1x16 : Shape := ⟨3, ![1, 1, 16]⟩
abbrev S16 : Shape := ⟨1, ![16]⟩
abbrev S1x16 : Shape := ⟨2, ![1, 16]⟩
abbrev S1x16x8 : Shape := ⟨3, ![1, 16, 8]⟩
abbrev S16x8 : Shape := ⟨2, ![16, 8]⟩
abbrev S4096x8 : Shape := ⟨2, ![4096, 8]⟩
abbrev S1x1x8 : Shape := ⟨3, ![1, 1, 8]⟩
abbrev S8 : Shape := ⟨1, ![8]⟩
abbrev S1x8 : Shape := ⟨2, ![1, 8]⟩
abbrev S1x8x8 : Shape := ⟨3, ![1, 8, 8]⟩
abbrev S8x8 : Shape := ⟨2, ![8, 8]⟩
abbrev S1x8x16 : Shape := ⟨3, ![1, 8, 16]⟩
abbrev S8x16 : Shape := ⟨2, ![8, 16]⟩
abbrev S1x16x32 : Shape := ⟨3, ![1, 16, 32]⟩
abbrev S16x32 : Shape := ⟨2, ![16, 32]⟩
abbrev S1x1x32 : Shape := ⟨3, ![1, 1, 32]⟩
abbrev S32 : Shape := ⟨1, ![32]⟩
abbrev S1x32 : Shape := ⟨2, ![1, 32]⟩
abbrev S1x32x256 : Shape := ⟨3, ![1, 32, 256]⟩
abbrev S32x256 : Shape := ⟨2, ![32, 256]⟩
abbrev S1x1x256 : Shape := ⟨3, ![1, 1, 256]⟩
abbrev S256 : Shape := ⟨1, ![256]⟩
abbrev S1x256 : Shape := ⟨2, ![1, 256]⟩
abbrev S1x4096x256 : Shape := ⟨3, ![1, 4096, 256]⟩

abbrev nBuf : Space → Nat
  | .hbm => 31
  | .vmem => 28
  | .smem => 0
  | _ => 0

abbrev bufTy : (tb : Table) → Fin (tcTables nBuf tb) → BufTy
  | .hbm, ⟨0, _⟩ => ⟨S4096x256, .f32⟩
  | .hbm, ⟨1, _⟩ => ⟨S100x32, .i32⟩
  | .hbm, ⟨2, _⟩ => ⟨S100x32x16, .f32⟩
  | .hbm, ⟨3, _⟩ => ⟨S100x16, .f32⟩
  | .hbm, ⟨4, _⟩ => ⟨S100x16x8, .f32⟩
  | .hbm, ⟨5, _⟩ => ⟨S100x8, .f32⟩
  | .hbm, ⟨6, _⟩ => ⟨S100x8x8, .f32⟩
  | .hbm, ⟨7, _⟩ => ⟨S100x8, .f32⟩
  | .hbm, ⟨8, _⟩ => ⟨S100x8x16, .f32⟩
  | .hbm, ⟨9, _⟩ => ⟨S100x16, .f32⟩
  | .hbm, ⟨10, _⟩ => ⟨S100x16x32, .f32⟩
  | .hbm, ⟨11, _⟩ => ⟨S100x32, .f32⟩
  | .hbm, ⟨12, _⟩ => ⟨S100x32x256, .f32⟩
  | .hbm, ⟨13, _⟩ => ⟨S100x256, .f32⟩
  | .hbm, ⟨14, _⟩ => ⟨S_, .i32⟩
  | .hbm, ⟨15, _⟩ => ⟨S100x32, .i32⟩
  | .hbm, ⟨16, _⟩ => ⟨S100x32, .i1⟩
  | .hbm, ⟨17, _⟩ => ⟨S_, .i32⟩
  | .hbm, ⟨18, _⟩ => ⟨S100x32, .i32⟩
  | .hbm, ⟨19, _⟩ => ⟨S100x32, .i32⟩
  | .hbm, ⟨20, _⟩ => ⟨S100x32, .i32⟩
  | .hbm, ⟨21, _⟩ => ⟨S100x32x1, .i32⟩
  | .hbm, ⟨22, _⟩ => ⟨S4096x100x32, .f32⟩
  | .hbm, ⟨23, _⟩ => ⟨S4096x100x1x32, .f32⟩
  | .hbm, ⟨24, _⟩ => ⟨S100x1x16, .f32⟩
  | .hbm, ⟨25, _⟩ => ⟨S100x1x8, .f32⟩
  | .hbm, ⟨26, _⟩ => ⟨S100x1x8, .f32⟩
  | .hbm, ⟨27, _⟩ => ⟨S100x1x16, .f32⟩
  | .hbm, ⟨28, _⟩ => ⟨S100x1x32, .f32⟩
  | .hbm, ⟨29, _⟩ => ⟨S100x1x256, .f32⟩
  | .hbm, ⟨30, _⟩ => ⟨S100x4096x256, .f32⟩
  | .local _ .vmem, ⟨0, _⟩ => ⟨S4096x4x1x32, .f32⟩
  | .local _ .vmem, ⟨1, _⟩ => ⟨S4096x4x1x32, .f32⟩
  | .local _ .vmem, ⟨2, _⟩ => ⟨S4x32x16, .f32⟩
  | .local _ .vmem, ⟨3, _⟩ => ⟨S4x32x16, .f32⟩
  | .local _ .vmem, ⟨4, _⟩ => ⟨S4x1x16, .f32⟩
  | .local _ .vmem, ⟨5, _⟩ => ⟨S4x1x16, .f32⟩
  | .local _ .vmem, ⟨6, _⟩ => ⟨S4x16x8, .f32⟩
  | .local _ .vmem, ⟨7, _⟩ => ⟨S4x16x8, .f32⟩
  | .local _ .vmem, ⟨8, _⟩ => ⟨S4x1x8, .f32⟩
  | .local _ .vmem, ⟨9, _⟩ => ⟨S4x1x8, .f32⟩
  | .local _ .vmem, ⟨10, _⟩ => ⟨S4x8x8, .f32⟩
  | .local _ .vmem, ⟨11, _⟩ => ⟨S4x8x8, .f32⟩
  | .local _ .vmem, ⟨12, _⟩ => ⟨S4x1x8, .f32⟩
  | .local _ .vmem, ⟨13, _⟩ => ⟨S4x1x8, .f32⟩
  | .local _ .vmem, ⟨14, _⟩ => ⟨S4x8x16, .f32⟩
  | .local _ .vmem, ⟨15, _⟩ => ⟨S4x8x16, .f32⟩
  | .local _ .vmem, ⟨16, _⟩ => ⟨S4x1x16, .f32⟩
  | .local _ .vmem, ⟨17, _⟩ => ⟨S4x1x16, .f32⟩
  | .local _ .vmem, ⟨18, _⟩ => ⟨S4x16x32, .f32⟩
  | .local _ .vmem, ⟨19, _⟩ => ⟨S4x16x32, .f32⟩
  | .local _ .vmem, ⟨20, _⟩ => ⟨S4x1x32, .f32⟩
  | .local _ .vmem, ⟨21, _⟩ => ⟨S4x1x32, .f32⟩
  | .local _ .vmem, ⟨22, _⟩ => ⟨S4x32x256, .f32⟩
  | .local _ .vmem, ⟨23, _⟩ => ⟨S4x32x256, .f32⟩
  | .local _ .vmem, ⟨24, _⟩ => ⟨S4x1x256, .f32⟩
  | .local _ .vmem, ⟨25, _⟩ => ⟨S4x1x256, .f32⟩
  | .local _ .vmem, ⟨26, _⟩ => ⟨S4x4096x256, .f32⟩
  | .local _ .vmem, ⟨27, _⟩ => ⟨S4x4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x4x1x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x16x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4096x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S100x32 : S_.BroadcastsInDim S100x32 (![] : Fin 0 → Fin S100x32.rank)
  bcast_S100x32_S100x32x1_0_1 : S100x32.BroadcastsInDim S100x32x1 (![0, 1] : Fin 2 → Fin S100x32x1.rank)
  bcast_S4096x100x32_S4096x100x1x32_0_1_3 : S4096x100x32.BroadcastsInDim S4096x100x1x32 (![0, 1, 3] : Fin 3 → Fin S4096x100x1x32.rank)
  shapeCasts_S100x16_S100x1x16 : S100x16.ShapeCasts S100x1x16
  shapeCasts_S100x8_S100x1x8 : S100x8.ShapeCasts S100x1x8
  shapeCasts_S100x32_S100x1x32 : S100x32.ShapeCasts S100x1x32
  shapeCasts_S100x256_S100x1x256 : S100x256.ShapeCasts S100x1x256
  inb_S4096x4x1x32_S4096x1x1x32_0_0_0_0 : ∀ a, (![0, 0, 0, 0] : Fin 4 → Nat) a + S4096x1x1x32.size a ≤ S4096x4x1x32.size a
  h_S4096x1x1x32 : 0 < S4096x1x1x32.numel
  shapeCasts_S4096x1x1x32_S4096x32 : S4096x1x1x32.ShapeCasts S4096x32
  inb_S4x32x16_S1x32x16_0_0_0 : ∀ a, (![0, 0, 0] : Fin 3 → Nat) a + S1x32x16.size a ≤ S4x32x16.size a
  h_S1x32x16 : 0 < S1x32x16.numel
  shapeCasts_S1x32x16_S32x16 : S1x32x16.ShapeCasts S32x16
  inb_S4x1x16_S1x1x16_0_0_0 : ∀ a, (![0, 0, 0] : Fin 3 → Nat) a + S1x1x16.size a ≤ S4x1x16.size a
  h_S1x1x16 : 0 < S1x1x16.numel
  shapeCasts_S1x1x16_S16 : S1x1x16.ShapeCasts S16
  shapeCasts_S16_S1x16 : S16.ShapeCasts S1x16
  broadcasts_S1x16_S4096x16 : S1x16.Broadcasts S4096x16
  inb_S4x16x8_S1x16x8_0_0_0 : ∀ a, (![0, 0, 0] : Fin 3 → Nat) a + S1x16x8.size a ≤ S4x16x8.size a
  h_S1x16x8 : 0 < S1x16x8.numel
  shapeCasts_S1x16x8_S16x8 : S1x16x8.ShapeCasts S16x8
  inb_S4x1x8_S1x1x8_0_0_0 : ∀ a, (![0, 0, 0] : Fin 3 → Nat) a + S1x1x8.size a ≤ S4x1x8.size a
  h_S1x1x8 : 0 < S1x1x8.numel
  shapeCasts_S1x1x8_S8 : S1x1x8.ShapeCasts S8
  shapeCasts_S8_S1x8 : S8.ShapeCasts S1x8
  broadcasts_S1x8_S4096x8 : S1x8.Broadcasts S4096x8
  inb_S4x8x8_S1x8x8_0_0_0 : ∀ a, (![0, 0, 0] : Fin 3 → Nat) a + S1x8x8.size a ≤ S4x8x8.size a
  h_S1x8x8 : 0 < S1x8x8.numel
  shapeCasts_S1x8x8_S8x8 : S1x8x8.ShapeCasts S8x8
  inb_S4x8x16_S1x8x16_0_0_0 : ∀ a, (![0, 0, 0] : Fin 3 → Nat) a + S1x8x16.size a ≤ S4x8x16.size a
  h_S1x8x16 : 0 < S1x8x16.numel
  shapeCasts_S1x8x16_S8x16 : S1x8x16.ShapeCasts S8x16
  inb_S4x16x32_S1x16x32_0_0_0 : ∀ a, (![0, 0, 0] : Fin 3 → Nat) a + S1x16x32.size a ≤ S4x16x32.size a
  h_S1x16x32 : 0 < S1x16x32.numel
  shapeCasts_S1x16x32_S16x32 : S1x16x32.ShapeCasts S16x32
  inb_S4x1x32_S1x1x32_0_0_0 : ∀ a, (![0, 0, 0] : Fin 3 → Nat) a + S1x1x32.size a ≤ S4x1x32.size a
  h_S1x1x32 : 0 < S1x1x32.numel
  shapeCasts_S1x1x32_S32 : S1x1x32.ShapeCasts S32
  shapeCasts_S32_S1x32 : S32.ShapeCasts S1x32
  broadcasts_S1x32_S4096x32 : S1x32.Broadcasts S4096x32
  inb_S4x32x256_S1x32x256_0_0_0 : ∀ a, (![0, 0, 0] : Fin 3 → Nat) a + S1x32x256.size a ≤ S4x32x256.size a
  h_S1x32x256 : 0 < S1x32x256.numel
  shapeCasts_S1x32x256_S32x256 : S1x32x256.ShapeCasts S32x256
  inb_S4x1x256_S1x1x256_0_0_0 : ∀ a, (![0, 0, 0] : Fin 3 → Nat) a + S1x1x256.size a ≤ S4x1x256.size a
  h_S1x1x256 : 0 < S1x1x256.numel
  shapeCasts_S1x1x256_S256 : S1x1x256.ShapeCasts S256
  shapeCasts_S256_S1x256 : S256.ShapeCasts S1x256
  broadcasts_S1x256_S4096x256 : S1x256.Broadcasts S4096x256
  inb_S4x4096x256_S1x4096x256_0_0_0 : ∀ a, (![0, 0, 0] : Fin 3 → Nat) a + S1x4096x256.size a ≤ S4x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  inb_S4096x4x1x32_S4096x1x1x32_0_1_0_0 : ∀ a, (![0, 1, 0, 0] : Fin 4 → Nat) a + S4096x1x1x32.size a ≤ S4096x4x1x32.size a
  inb_S4x32x16_S1x32x16_1_0_0 : ∀ a, (![1, 0, 0] : Fin 3 → Nat) a + S1x32x16.size a ≤ S4x32x16.size a
  inb_S4x1x16_S1x1x16_1_0_0 : ∀ a, (![1, 0, 0] : Fin 3 → Nat) a + S1x1x16.size a ≤ S4x1x16.size a
  inb_S4x16x8_S1x16x8_1_0_0 : ∀ a, (![1, 0, 0] : Fin 3 → Nat) a + S1x16x8.size a ≤ S4x16x8.size a
  inb_S4x1x8_S1x1x8_1_0_0 : ∀ a, (![1, 0, 0] : Fin 3 → Nat) a + S1x1x8.size a ≤ S4x1x8.size a
  inb_S4x8x8_S1x8x8_1_0_0 : ∀ a, (![1, 0, 0] : Fin 3 → Nat) a + S1x8x8.size a ≤ S4x8x8.size a
  inb_S4x8x16_S1x8x16_1_0_0 : ∀ a, (![1, 0, 0] : Fin 3 → Nat) a + S1x8x16.size a ≤ S4x8x16.size a
  inb_S4x16x32_S1x16x32_1_0_0 : ∀ a, (![1, 0, 0] : Fin 3 → Nat) a + S1x16x32.size a ≤ S4x16x32.size a
  inb_S4x1x32_S1x1x32_1_0_0 : ∀ a, (![1, 0, 0] : Fin 3 → Nat) a + S1x1x32.size a ≤ S4x1x32.size a
  inb_S4x32x256_S1x32x256_1_0_0 : ∀ a, (![1, 0, 0] : Fin 3 → Nat) a + S1x32x256.size a ≤ S4x32x256.size a
  inb_S4x1x256_S1x1x256_1_0_0 : ∀ a, (![1, 0, 0] : Fin 3 → Nat) a + S1x1x256.size a ≤ S4x1x256.size a
  inb_S4x4096x256_S1x4096x256_1_0_0 : ∀ a, (![1, 0, 0] : Fin 3 → Nat) a + S1x4096x256.size a ≤ S4x4096x256.size a
  inb_S4096x4x1x32_S4096x1x1x32_0_2_0_0 : ∀ a, (![0, 2, 0, 0] : Fin 4 → Nat) a + S4096x1x1x32.size a ≤ S4096x4x1x32.size a
  inb_S4x32x16_S1x32x16_2_0_0 : ∀ a, (![2, 0, 0] : Fin 3 → Nat) a + S1x32x16.size a ≤ S4x32x16.size a
  inb_S4x1x16_S1x1x16_2_0_0 : ∀ a, (![2, 0, 0] : Fin 3 → Nat) a + S1x1x16.size a ≤ S4x1x16.size a
  inb_S4x16x8_S1x16x8_2_0_0 : ∀ a, (![2, 0, 0] : Fin 3 → Nat) a + S1x16x8.size a ≤ S4x16x8.size a
  inb_S4x1x8_S1x1x8_2_0_0 : ∀ a, (![2, 0, 0] : Fin 3 → Nat) a + S1x1x8.size a ≤ S4x1x8.size a
  inb_S4x8x8_S1x8x8_2_0_0 : ∀ a, (![2, 0, 0] : Fin 3 → Nat) a + S1x8x8.size a ≤ S4x8x8.size a
  inb_S4x8x16_S1x8x16_2_0_0 : ∀ a, (![2, 0, 0] : Fin 3 → Nat) a + S1x8x16.size a ≤ S4x8x16.size a
  inb_S4x16x32_S1x16x32_2_0_0 : ∀ a, (![2, 0, 0] : Fin 3 → Nat) a + S1x16x32.size a ≤ S4x16x32.size a
  inb_S4x1x32_S1x1x32_2_0_0 : ∀ a, (![2, 0, 0] : Fin 3 → Nat) a + S1x1x32.size a ≤ S4x1x32.size a
  inb_S4x32x256_S1x32x256_2_0_0 : ∀ a, (![2, 0, 0] : Fin 3 → Nat) a + S1x32x256.size a ≤ S4x32x256.size a
  inb_S4x1x256_S1x1x256_2_0_0 : ∀ a, (![2, 0, 0] : Fin 3 → Nat) a + S1x1x256.size a ≤ S4x1x256.size a
  inb_S4x4096x256_S1x4096x256_2_0_0 : ∀ a, (![2, 0, 0] : Fin 3 → Nat) a + S1x4096x256.size a ≤ S4x4096x256.size a
  inb_S4096x4x1x32_S4096x1x1x32_0_3_0_0 : ∀ a, (![0, 3, 0, 0] : Fin 4 → Nat) a + S4096x1x1x32.size a ≤ S4096x4x1x32.size a
  inb_S4x32x16_S1x32x16_3_0_0 : ∀ a, (![3, 0, 0] : Fin 3 → Nat) a + S1x32x16.size a ≤ S4x32x16.size a
  inb_S4x1x16_S1x1x16_3_0_0 : ∀ a, (![3, 0, 0] : Fin 3 → Nat) a + S1x1x16.size a ≤ S4x1x16.size a
  inb_S4x16x8_S1x16x8_3_0_0 : ∀ a, (![3, 0, 0] : Fin 3 → Nat) a + S1x16x8.size a ≤ S4x16x8.size a
  inb_S4x1x8_S1x1x8_3_0_0 : ∀ a, (![3, 0, 0] : Fin 3 → Nat) a + S1x1x8.size a ≤ S4x1x8.size a
  inb_S4x8x8_S1x8x8_3_0_0 : ∀ a, (![3, 0, 0] : Fin 3 → Nat) a + S1x8x8.size a ≤ S4x8x8.size a
  inb_S4x8x16_S1x8x16_3_0_0 : ∀ a, (![3, 0, 0] : Fin 3 → Nat) a + S1x8x16.size a ≤ S4x8x16.size a
  inb_S4x16x32_S1x16x32_3_0_0 : ∀ a, (![3, 0, 0] : Fin 3 → Nat) a + S1x16x32.size a ≤ S4x16x32.size a
  inb_S4x1x32_S1x1x32_3_0_0 : ∀ a, (![3, 0, 0] : Fin 3 → Nat) a + S1x1x32.size a ≤ S4x1x32.size a
  inb_S4x32x256_S1x32x256_3_0_0 : ∀ a, (![3, 0, 0] : Fin 3 → Nat) a + S1x32x256.size a ≤ S4x32x256.size a
  inb_S4x1x256_S1x1x256_3_0_0 : ∀ a, (![3, 0, 0] : Fin 3 → Nat) a + S1x1x256.size a ≤ S4x1x256.size a
  inb_S4x4096x256_S1x4096x256_3_0_0 : ∀ a, (![3, 0, 0] : Fin 3 → Nat) a + S1x4096x256.size a ≤ S4x4096x256.size a
  gather_S4096x256_S100x32x1_S4096x100x32_0_1_n_n_1_2_40961_wf : GatherDims.WF S4096x256 S100x32x1 S4096x100x32 [0] [1] [] [1] [] 2 ![4096, 1]
  dot_S4096x32_S32x16_S4096x16_1_0_0_1_n_n_wf : DotDims.WF S4096x32 S32x16 S4096x16 [1] [0] [0] [1] [] []
  dot_S4096x16_S16x8_S4096x8_1_0_0_1_n_n_wf : DotDims.WF S4096x16 S16x8 S4096x8 [1] [0] [0] [1] [] []
  dot_S4096x8_S8x8_S4096x8_1_0_0_1_n_n_wf : DotDims.WF S4096x8 S8x8 S4096x8 [1] [0] [0] [1] [] []
  dot_S4096x8_S8x16_S4096x16_1_0_0_1_n_n_wf : DotDims.WF S4096x8 S8x16 S4096x16 [1] [0] [0] [1] [] []
  dot_S4096x16_S16x32_S4096x32_1_0_0_1_n_n_wf : DotDims.WF S4096x16 S16x32 S4096x32 [1] [0] [0] [1] [] []
  dot_S4096x32_S32x256_S4096x256_1_0_0_1_n_n_wf : DotDims.WF S4096x32 S32x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4x1x32.size a ≤ S4096x100x1x32.size a
  hwx0_0 : ∀ i : grid0.Coords, EltTy.bits .f32 = 32 ∨ (Rect.block (s := S4096x100x1x32) S4096x4x1x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32x16.size a ≤ S100x32x16.size a
  hwx0_1 : ∀ i : grid0.Coords, EltTy.bits .f32 = 32 ∨ (Rect.block (s := S100x32x16) S4x32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x16.size a ≤ S100x1x16.size a
  hwx0_2 : ∀ i : grid0.Coords, EltTy.bits .f32 = 32 ∨ (Rect.block (s := S100x1x16) S4x1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x16x8.size a ≤ S100x16x8.size a
  hwx0_3 : ∀ i : grid0.Coords, EltTy.bits .f32 = 32 ∨ (Rect.block (s := S100x16x8) S4x16x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x8.size a ≤ S100x1x8.size a
  hwx0_4 : ∀ i : grid0.Coords, EltTy.bits .f32 = 32 ∨ (Rect.block (s := S100x1x8) S4x1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x8x8.size a ≤ S100x8x8.size a
  hwx0_5 : ∀ i : grid0.Coords, EltTy.bits .f32 = 32 ∨ (Rect.block (s := S100x8x8) S4x8x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x8.size a ≤ S100x1x8.size a
  hwx0_6 : ∀ i : grid0.Coords, EltTy.bits .f32 = 32 ∨ (Rect.block (s := S100x1x8) S4x1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x8x16.size a ≤ S100x8x16.size a
  hwx0_7 : ∀ i : grid0.Coords, EltTy.bits .f32 = 32 ∨ (Rect.block (s := S100x8x16) S4x8x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x1x16.size a ≤ S100x1x16.size a
  hwx0_8 : ∀ i : grid0.Coords, EltTy.bits .f32 = 32 ∨ (Rect.block (s := S100x1x16) S4x1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x16x32.size a ≤ S100x16x32.size a
  hwx0_9 : ∀ i : grid0.Coords, EltTy.bits .f32 = 32 ∨ (Rect.block (s := S100x16x32) S4x16x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x1x32.size a ≤ S100x1x32.size a
  hwx0_10 : ∀ i : grid0.Coords, EltTy.bits .f32 = 32 ∨ (Rect.block (s := S100x1x32) S4x1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x32x256.size a ≤ S100x32x256.size a
  hwx0_11 : ∀ i : grid0.Coords, EltTy.bits .f32 = 32 ∨ (Rect.block (s := S100x32x256) S4x32x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4x1x256.size a ≤ S100x1x256.size a
  hwx0_12 : ∀ i : grid0.Coords, EltTy.bits .f32 = 32 ∨ (Rect.block (s := S100x1x256) S4x1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x4096x256.size a ≤ S100x4096x256.size a
  hwx0_13 : ∀ i : grid0.Coords, EltTy.bits .f32 = 32 ∨ (Rect.block (s := S100x4096x256) S4x4096x256.size (cc0_transform_13 i) (hinb0_13 i)).WholeWords (EltTy.packing .f32)

variable [Facts₀]

def gather_S4096x256_S100x32x1_S4096x100x32_0_1_n_n_1_2_40961 : GatherDims S4096x256 S100x32x1 S4096x100x32 where
  offsetDims := [0]
  collapsedSliceDims := [1]
  operandBatchingDims := []
  startIndicesBatchingDims := []
  startIndexMap := [1]
  indexVectorDim := 2
  sliceSizes := ![4096, 1]
  wf := gather_S4096x256_S100x32x1_S4096x100x32_0_1_n_n_1_2_40961_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x16_S16x8_S4096x8_1_0_0_1_n_n : DotDims S4096x16 S16x8 S4096x8 where
  lhsContracting := [1]
  rhsContracting := [0]
  lhsNonContracting := [0]
  rhsNonContracting := [1]
  lhsBatch := []
  rhsBatch := []
  wf := dot_S4096x16_S16x8_S4096x8_1_0_0_1_n_n_wf
def dot_S4096x8_S8x8_S4096x8_1_0_0_1_n_n : DotDims S4096x8 S8x8 S4096x8 where
  lhsContracting := [1]
  rhsContracting := [0]
  lhsNonContracting := [0]
  rhsNonContracting := [1]
  lhsBatch := []
  rhsBatch := []
  wf := dot_S4096x8_S8x8_S4096x8_1_0_0_1_n_n_wf
def dot_S4096x8_S8x16_S4096x16_1_0_0_1_n_n : DotDims S4096x8 S8x16 S4096x16 where
  lhsContracting := [1]
  rhsContracting := [0]
  lhsNonContracting := [0]
  rhsNonContracting := [1]
  lhsBatch := []
  rhsBatch := []
  wf := dot_S4096x8_S8x16_S4096x16_1_0_0_1_n_n_wf
def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf

abbrev win0_0 : Pipeline.Window sig grid0 :=
  Pipeline.Window.ofSpec (Memref.whole main_v7) S4096x4x1x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x32x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x1x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x16x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4x1x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x8x8.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4x1x8.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S4x8x16.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S4x1x16.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S4x16x32.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12) S4x1x32.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S4x32x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v13) S4x1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v14) S4x4096x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x256 : Shape := ⟨2, ![4096, 256]⟩
abbrev S100x32 : Shape := ⟨2, ![100, 32]⟩
abbrev S100x32x16 : Shape := ⟨3, ![100, 32, 16]⟩
abbrev S100x16 : Shape := ⟨2, ![100, 16]⟩
abbrev S100x16x8 : Shape := ⟨3, ![100, 16, 8]⟩
abbrev S100x8 : Shape := ⟨2, ![100, 8]⟩
abbrev S100x8x8 : Shape := ⟨3, ![100, 8, 8]⟩
abbrev S100x8x16 : Shape := ⟨3, ![100, 8, 16]⟩
abbrev S100x16x32 : Shape := ⟨3, ![100, 16, 32]⟩
abbrev S100x32x256 : Shape := ⟨3, ![100, 32, 256]⟩
abbrev S100x256 : Shape := ⟨2, ![100, 256]⟩
abbrev S_ : Shape := ⟨0, ![]⟩
abbrev S100x32x1 : Shape := ⟨3, ![100, 32, 1]⟩
abbrev S4096x100x32 : Shape := ⟨3, ![4096, 100, 32]⟩
abbrev S100x4096x32 : Shape := ⟨3, ![100, 4096, 32]⟩
abbrev S100x4096x16 : Shape := ⟨3, ![100, 4096, 16]⟩
abbrev S100x1x16 : Shape := ⟨3, ![100, 1, 16]⟩
abbrev S100x4096x8 : Shape := ⟨3, ![100, 4096, 8]⟩
abbrev S100x1x8 : Shape := ⟨3, ![100, 1, 8]⟩
abbrev S100x1x32 : Shape := ⟨3, ![100, 1, 32]⟩
abbrev S100x4096x256 : Shape := ⟨3, ![100, 4096, 256]⟩
abbrev S100x1x256 : Shape := ⟨3, ![100, 1, 256]⟩

abbrev nBuf : Space → Nat
  | .hbm => 65
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S100x32, .i32⟩
  | .hbm, ⟨2, _⟩ => ⟨S100x32x16, .f32⟩
  | .hbm, ⟨3, _⟩ => ⟨S100x16, .f32⟩
  | .hbm, ⟨4, _⟩ => ⟨S100x16x8, .f32⟩
  | .hbm, ⟨5, _⟩ => ⟨S100x8, .f32⟩
  | .hbm, ⟨6, _⟩ => ⟨S100x8x8, .f32⟩
  | .hbm, ⟨7, _⟩ => ⟨S100x8, .f32⟩
  | .hbm, ⟨8, _⟩ => ⟨S100x8x16, .f32⟩
  | .hbm, ⟨9, _⟩ => ⟨S100x16, .f32⟩
  | .hbm, ⟨10, _⟩ => ⟨S100x16x32, .f32⟩
  | .hbm, ⟨11, _⟩ => ⟨S100x32, .f32⟩
  | .hbm, ⟨12, _⟩ => ⟨S100x32x256, .f32⟩
  | .hbm, ⟨13, _⟩ => ⟨S100x256, .f32⟩
  | .hbm, ⟨14, _⟩ => ⟨S_, .i32⟩
  | .hbm, ⟨15, _⟩ => ⟨S100x32, .i32⟩
  | .hbm, ⟨16, _⟩ => ⟨S100x32, .i1⟩
  | .hbm, ⟨17, _⟩ => ⟨S_, .i32⟩
  | .hbm, ⟨18, _⟩ => ⟨S100x32, .i32⟩
  | .hbm, ⟨19, _⟩ => ⟨S100x32, .i32⟩
  | .hbm, ⟨20, _⟩ => ⟨S100x32, .i32⟩
  | .hbm, ⟨21, _⟩ => ⟨S100x32x1, .i32⟩
  | .hbm, ⟨22, _⟩ => ⟨S4096x100x32, .f32⟩
  | .hbm, ⟨23, _⟩ => ⟨S100x4096x32, .f32⟩
  | .hbm, ⟨24, _⟩ => ⟨S100x4096x16, .f32⟩
  | .hbm, ⟨25, _⟩ => ⟨S100x1x16, .f32⟩
  | .hbm, ⟨26, _⟩ => ⟨S100x4096x16, .f32⟩
  | .hbm, ⟨27, _⟩ => ⟨S100x4096x16, .f32⟩
  | .hbm, ⟨28, _⟩ => ⟨S100x4096x8, .f32⟩
  | .hbm, ⟨29, _⟩ => ⟨S100x1x8, .f32⟩
  | .hbm, ⟨30, _⟩ => ⟨S100x4096x8, .f32⟩
  | .hbm, ⟨31, _⟩ => ⟨S100x4096x8, .f32⟩
  | .hbm, ⟨32, _⟩ => ⟨S_, .f32⟩
  | .hbm, ⟨33, _⟩ => ⟨S100x4096x8, .f32⟩
  | .hbm, ⟨34, _⟩ => ⟨S100x4096x8, .f32⟩
  | .hbm, ⟨35, _⟩ => ⟨S100x4096x8, .f32⟩
  | .hbm, ⟨36, _⟩ => ⟨S100x1x8, .f32⟩
  | .hbm, ⟨37, _⟩ => ⟨S100x4096x8, .f32⟩
  | .hbm, ⟨38, _⟩ => ⟨S100x4096x8, .f32⟩
  | .hbm, ⟨39, _⟩ => ⟨S_, .f32⟩
  | .hbm, ⟨40, _⟩ => ⟨S100x4096x8, .f32⟩
  | .hbm, ⟨41, _⟩ => ⟨S100x4096x8, .f32⟩
  | .hbm, ⟨42, _⟩ => ⟨S100x4096x16, .f32⟩
  | .hbm, ⟨43, _⟩ => ⟨S100x1x16, .f32⟩
  | .hbm, ⟨44, _⟩ => ⟨S100x4096x16, .f32⟩
  | .hbm, ⟨45, _⟩ => ⟨S100x4096x16, .f32⟩
  | .hbm, ⟨46, _⟩ => ⟨S100x4096x32, .f32⟩
  | .hbm, ⟨47, _⟩ => ⟨S100x1x32, .f32⟩
  | .hbm, ⟨48, _⟩ => ⟨S100x4096x32, .f32⟩
  | .hbm, ⟨49, _⟩ => ⟨S100x4096x32, .f32⟩
  | .hbm, ⟨50, _⟩ => ⟨S_, .f32⟩
  | .hbm, ⟨51, _⟩ => ⟨S100x4096x32, .f32⟩
  | .hbm, ⟨52, _⟩ => ⟨S100x4096x32, .f32⟩
  | .hbm, ⟨53, _⟩ => ⟨S100x4096x256, .f32⟩
  | .hbm, ⟨54, _⟩ => ⟨S100x1x256, .f32⟩
  | .hbm, ⟨55, _⟩ => ⟨S100x4096x256, .f32⟩
  | .hbm, ⟨56, _⟩ => ⟨S100x4096x256, .f32⟩
  | .hbm, ⟨57, _⟩ => ⟨S100x4096x256, .f32⟩
  | .hbm, ⟨58, _⟩ => ⟨S100x4096x256, .f32⟩
  | .hbm, ⟨59, _⟩ => ⟨S_, .f32⟩
  | .hbm, ⟨60, _⟩ => ⟨S100x4096x256, .f32⟩
  | .hbm, ⟨61, _⟩ => ⟨S100x4096x256, .f32⟩
  | .hbm, ⟨62, _⟩ => ⟨S_, .f32⟩
  | .hbm, ⟨63, _⟩ => ⟨S100x4096x256, .f32⟩
  | .hbm, ⟨64, _⟩ => ⟨S100x4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_cst : Ref sig .tc := ⟨.hbm, 39, rfl⟩
abbrev main_call1_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_cst : Ref sig .tc := ⟨.hbm, 50, rfl⟩
abbrev main_call2_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S_S100x32 : S_.BroadcastsInDim S100x32 (![] : Fin 0 → Fin S100x32.rank)
  bcast_S100x32_S100x32x1_0_1 : S100x32.BroadcastsInDim S100x32x1 (![0, 1] : Fin 2 → Fin S100x32x1.rank)
  transposes_S4096x100x32_S100x4096x32_1_0_2 : S4096x100x32.Transposes [1, 0, 2] S100x4096x32
  bcast_S100x16_S100x1x16_0_2 : S100x16.BroadcastsInDim S100x1x16 (![0, 2] : Fin 2 → Fin S100x1x16.rank)
  bcast_S100x1x16_S100x4096x16_0_1_2 : S100x1x16.BroadcastsInDim S100x4096x16 (![0, 1, 2] : Fin 3 → Fin S100x4096x16.rank)
  bcast_S100x8_S100x1x8_0_2 : S100x8.BroadcastsInDim S100x1x8 (![0, 2] : Fin 2 → Fin S100x1x8.rank)
  bcast_S100x1x8_S100x4096x8_0_1_2 : S100x1x8.BroadcastsInDim S100x4096x8 (![0, 1, 2] : Fin 3 → Fin S100x4096x8.rank)
  bcast_S_S100x4096x8 : S_.BroadcastsInDim S100x4096x8 (![] : Fin 0 → Fin S100x4096x8.rank)
  bcast_S100x32_S100x1x32_0_2 : S100x32.BroadcastsInDim S100x1x32 (![0, 2] : Fin 2 → Fin S100x1x32.rank)
  bcast_S100x1x32_S100x4096x32_0_1_2 : S100x1x32.BroadcastsInDim S100x4096x32 (![0, 1, 2] : Fin 3 → Fin S100x4096x32.rank)
  bcast_S_S100x4096x32 : S_.BroadcastsInDim S100x4096x32 (![] : Fin 0 → Fin S100x4096x32.rank)
  bcast_S100x256_S100x1x256_0_2 : S100x256.BroadcastsInDim S100x1x256 (![0, 2] : Fin 2 → Fin S100x1x256.rank)
  bcast_S100x1x256_S100x4096x256_0_1_2 : S100x1x256.BroadcastsInDim S100x4096x256 (![0, 1, 2] : Fin 3 → Fin S100x4096x256.rank)
  bcast_S_S100x4096x256 : S_.BroadcastsInDim S100x4096x256 (![] : Fin 0 → Fin S100x4096x256.rank)
  gather_S4096x256_S100x32x1_S4096x100x32_0_1_n_n_1_2_40961_wf : GatherDims.WF S4096x256 S100x32x1 S4096x100x32 [0] [1] [] [1] [] 2 ![4096, 1]
  dot_S100x4096x32_S100x32x16_S100x4096x16_2_1_1_2_0_0_wf : DotDims.WF S100x4096x32 S100x32x16 S100x4096x16 [2] [1] [1] [2] [0] [0]
  dot_S100x4096x16_S100x16x8_S100x4096x8_2_1_1_2_0_0_wf : DotDims.WF S100x4096x16 S100x16x8 S100x4096x8 [2] [1] [1] [2] [0] [0]
  dot_S100x4096x8_S100x8x8_S100x4096x8_2_1_1_2_0_0_wf : DotDims.WF S100x4096x8 S100x8x8 S100x4096x8 [2] [1] [1] [2] [0] [0]
  dot_S100x4096x8_S100x8x16_S100x4096x16_2_1_1_2_0_0_wf : DotDims.WF S100x4096x8 S100x8x16 S100x4096x16 [2] [1] [1] [2] [0] [0]
  dot_S100x4096x16_S100x16x32_S100x4096x32_2_1_1_2_0_0_wf : DotDims.WF S100x4096x16 S100x16x32 S100x4096x32 [2] [1] [1] [2] [0] [0]
  dot_S100x4096x32_S100x32x256_S100x4096x256_2_1_1_2_0_0_wf : DotDims.WF S100x4096x32 S100x32x256 S100x4096x256 [2] [1] [1] [2] [0] [0]

variable [Facts₀]

def gather_S4096x256_S100x32x1_S4096x100x32_0_1_n_n_1_2_40961 : GatherDims S4096x256 S100x32x1 S4096x100x32 where
  offsetDims := [0]
  collapsedSliceDims := [1]
  operandBatchingDims := []
  startIndicesBatchingDims := []
  startIndexMap := [1]
  indexVectorDim := 2
  sliceSizes := ![4096, 1]
  wf := gather_S4096x256_S100x32x1_S4096x100x32_0_1_n_n_1_2_40961_wf
def dot_S100x4096x32_S100x32x16_S100x4096x16_2_1_1_2_0_0 : DotDims S100x4096x32 S100x32x16 S100x4096x16 where
  lhsContracting := [2]
  rhsContracting := [1]
  lhsNonContracting := [1]
  rhsNonContracting := [2]
  lhsBatch := [0]
  rhsBatch := [0]
  wf := dot_S100x4096x32_S100x32x16_S100x4096x16_2_1_1_2_0_0_wf
def dot_S100x4096x16_S100x16x8_S100x4096x8_2_1_1_2_0_0 : DotDims S100x4096x16 S100x16x8 S100x4096x8 where
  lhsContracting := [2]
  rhsContracting := [1]
  lhsNonContracting := [1]
  rhsNonContracting := [2]
  lhsBatch := [0]
  rhsBatch := [0]
  wf := dot_S100x4096x16_S100x16x8_S100x4096x8_2_1_1_2_0_0_wf
def dot_S100x4096x8_S100x8x8_S100x4096x8_2_1_1_2_0_0 : DotDims S100x4096x8 S100x8x8 S100x4096x8 where
  lhsContracting := [2]
  rhsContracting := [1]
  lhsNonContracting := [1]
  rhsNonContracting := [2]
  lhsBatch := [0]
  rhsBatch := [0]
  wf := dot_S100x4096x8_S100x8x8_S100x4096x8_2_1_1_2_0_0_wf
def dot_S100x4096x8_S100x8x16_S100x4096x16_2_1_1_2_0_0 : DotDims S100x4096x8 S100x8x16 S100x4096x16 where
  lhsContracting := [2]
  rhsContracting := [1]
  lhsNonContracting := [1]
  rhsNonContracting := [2]
  lhsBatch := [0]
  rhsBatch := [0]
  wf := dot_S100x4096x8_S100x8x16_S100x4096x16_2_1_1_2_0_0_wf
def dot_S100x4096x16_S100x16x32_S100x4096x32_2_1_1_2_0_0 : DotDims S100x4096x16 S100x16x32 S100x4096x32 where
  lhsContracting := [2]
  rhsContracting := [1]
  lhsNonContracting := [1]
  rhsNonContracting := [2]
  lhsBatch := [0]
  rhsBatch := [0]
  wf := dot_S100x4096x16_S100x16x32_S100x4096x32_2_1_1_2_0_0_wf
def dot_S100x4096x32_S100x32x256_S100x4096x256_2_1_1_2_0_0 : DotDims S100x4096x32 S100x32x256 S100x4096x256 where
  lhsContracting := [2]
  rhsContracting := [1]
  lhsNonContracting := [1]
  rhsNonContracting := [2]
  lhsBatch := [0]
  rhsBatch := [0]
  wf := dot_S100x4096x32_S100x32x256_S100x4096x256_2_1_1_2_0_0_wf

class Facts : Prop extends Facts₀ where

variable [Facts]
-- ==== Proof.Bag.lean ====
/-
  The function both programs compute.  A bagged autoencoder: for each of the 100 estimators `e` a chain of six affine
  layers over that estimator's own gathered 32-feature slice of the batch,
      h0 = xg·We0 + be0,  h1 = max(h0·We1 + be1, 0),  z = max(h1·Wl + bl, 0),
      d0 = z·Wd0 + bd0,   d1 = max(d0·Wd1 + bd1, 0),  o = 1 / (1 + exp(-(d1·Wo + bo))),
  every product a plain sum over the contracted axis.  Everything is stated on the extended reals, index by index, over
  families indexed by `Fin`: one affine layer (`dense`), the cut at zero (`cut0`), and the whole output array `out` as a
  function of the gathered batch and the twelve weight and bias arrays.  The zero of the cut is kept as the word both
  programs print for it, so neither side ever evaluates it.
-/
import Idealize.ShloMosaic.PureOps.Ideal
import Idealize.ShloMosaic.Lib.ValueIdx

noncomputable section

open scoped BigOperators

namespace Cert.Bag

open Idealize.ShloMosaic Idealize.ShloMosaic.ValueIdx

/-- One affine layer: row `r` of `a` against column `n` of `w`, summed over the contracted axis, plus the bias at `n`. -/
def dense {B K N : Nat} (a : Fin B → Fin K → EReal) (w : Fin K → Fin N → EReal) (b : Fin N → EReal) :
    Fin B → Fin N → EReal :=
  fun r n => (∑ k : Fin K, a r k * w k n) + b n

/-- The cut at zero, entry by entry; the zero is the f32 word `0x00000000` read at the extended reals. -/
def cut0 {B N : Nat} (f : Fin B → Fin N → EReal) : Fin B → Fin N → EReal :=
  fun r n => max (f r n) (Ideal.ofBits .f32 0x00000000#32)

/-- The six layers of one estimator, before the final squashing: from the estimator's slice `x` of the gathered batch
    and its own six weight matrices and bias rows. -/
def chain (x : Fin 4096 → Fin 32 → EReal)
    (w0 : Fin 32 → Fin 16 → EReal) (b0 : Fin 16 → EReal) (w1 : Fin 16 → Fin 8 → EReal) (b1 : Fin 8 → EReal)
    (w2 : Fin 8 → Fin 8 → EReal) (b2 : Fin 8 → EReal) (w3 : Fin 8 → Fin 16 → EReal) (b3 : Fin 16 → EReal)
    (w4 : Fin 16 → Fin 32 → EReal) (b4 : Fin 32 → EReal) (w5 : Fin 32 → Fin 256 → EReal) (b5 : Fin 256 → EReal) :
    Fin 4096 → Fin 256 → EReal :=
  dense (cut0 (dense (dense (cut0 (dense (cut0 (dense (dense x w0 b0) w1 b1)) w2 b2)) w3 b3) w4 b4)) w5 b5

/-- The whole output array, [100, 4096, 256]: entry `(e, r, d)` is the logistic of estimator `e`'s chain at `(r, d)`, the
    chain fed with estimator `e`'s slice of the gathered batch `xg` ([4096, 100, 32]) and slab `e` of each weight and
    bias array. -/
def out (xg : FVec Ideal ⟨3, ![4096, 100, 32]⟩ .f32)
    (We0 : FVec Ideal ⟨3, ![100, 32, 16]⟩ .f32) (be0 : FVec Ideal ⟨2, ![100, 16]⟩ .f32)
    (We1 : FVec Ideal ⟨3, ![100, 16, 8]⟩ .f32) (be1 : FVec Ideal ⟨2, ![100, 8]⟩ .f32)
    (Wl : FVec Ideal ⟨3, ![100, 8, 8]⟩ .f32) (bl : FVec Ideal ⟨2, ![100, 8]⟩ .f32)
    (Wd0 : FVec Ideal ⟨3, ![100, 8, 16]⟩ .f32) (bd0 : FVec Ideal ⟨2, ![100, 16]⟩ .f32)
    (Wd1 : FVec Ideal ⟨3, ![100, 16, 32]⟩ .f32) (bd1 : FVec Ideal ⟨2, ![100, 32]⟩ .f32)
    (Wo : FVec Ideal ⟨3, ![100, 32, 256]⟩ .f32) (bo : FVec Ideal ⟨2, ![100, 256]⟩ .f32) :
    FVec Ideal ⟨3, ![100, 4096, 256]⟩ .f32 :=
  fun i => Ideal.logistic (chain (fun r f => xg (ix3 r (i 0) f))
    (fun f h => We0 (ix3 (i 0) f h)) (fun h => be0 (ix2 (i 0) h))
    (fun h l => We1 (ix3 (i 0) h l)) (fun l => be1 (ix2 (i 0) l))
    (fun l p => Wl (ix3 (i 0) l p)) (fun p => bl (ix2 (i 0) p))
    (fun p h => Wd0 (ix3 (i 0) p h)) (fun h => bd0 (ix2 (i 0) h))
    (fun h f => Wd1 (ix3 (i 0) h f)) (fun f => bd1 (ix2 (i 0) f))
    (fun f d => Wo (ix3 (i 0) f d)) (fun d => bo (ix2 (i 0) d)) (i 1) (i 2))

end Cert.Bag

end
-- ==== Proof.KernelChain.lean ====
/-
  One estimator's chain as the kernel body spells it, as pure vector functions of what the body loads: each affine layer
  is the matrix product into a zero accumulator plus the layer's bias row laid down every row of the batch; three of the
  six are followed by the cut at zero, the last by the logistic.  Read at an index on the extended reals, each layer is the
  plain sum over the contracted axis plus the bias entry, so the chain is the specification's `chain` of the loaded
  slabs.
-/
import proofs.«401742_j11493332484141_2_alg».proof.Proof.Gen.KernelIdeal
import proofs.«401742_j11493332484141_2_alg».proof.Proof.Bag
import Idealize.ShloMosaic.PureOps.Ideal.Laws
import Idealize.ShloMosaic.Lib.ValueIdx
import Idealize.ShloMosaic.Lib.Pipeline.Value

noncomputable section

open scoped BigOperators

namespace Cert.KernelIdeal.Chain

open Cert.KernelIdeal Cert.KernelIdeal.Gen Idealize.ShloMosaic Idealize.ShloMosaic.TcCoe Idealize.ShloMosaic.ValueIdx

variable {F : FTy → Type} [FloatOps F]

/-- [4096,32]·[32,16] + bias row. -/
def aff0 (a : FVec F S4096x32 .f32) (w : Vec F S1x32x16 .f32) (b : Vec F S1x1x16 .f32) : FVec F S4096x16 .f32 :=
  addf (matmul dot_S4096x32_S32x16_S4096x16_1_0_0_1_n_n (some .fp32) a (shapeCast S32x16 w shapeCasts_S1x32x16_S32x16) (constant S4096x16 .f32 0x00000000#32))
    (broadcastTo S4096x16 (shapeCast S1x16 (shapeCast S16 b shapeCasts_S1x1x16_S16) shapeCasts_S16_S1x16) broadcasts_S1x16_S4096x16)

/-- [4096,16]·[16,8] + bias row. -/
def aff1 (a : FVec F S4096x16 .f32) (w : Vec F S1x16x8 .f32) (b : Vec F S1x1x8 .f32) : FVec F S4096x8 .f32 :=
  addf (matmul dot_S4096x16_S16x8_S4096x8_1_0_0_1_n_n (some .fp32) a (shapeCast S16x8 w shapeCasts_S1x16x8_S16x8) (constant S4096x8 .f32 0x00000000#32))
    (broadcastTo S4096x8 (shapeCast S1x8 (shapeCast S8 b shapeCasts_S1x1x8_S8) shapeCasts_S8_S1x8) broadcasts_S1x8_S4096x8)

/-- [4096,8]·[8,8] + bias row. -/
def aff2 (a : FVec F S4096x8 .f32) (w : Vec F S1x8x8 .f32) (b : Vec F S1x1x8 .f32) : FVec F S4096x8 .f32 :=
  addf (matmul dot_S4096x8_S8x8_S4096x8_1_0_0_1_n_n (some .fp32) a (shapeCast S8x8 w shapeCasts_S1x8x8_S8x8) (constant S4096x8 .f32 0x00000000#32))
    (broadcastTo S4096x8 (shapeCast S1x8 (shapeCast S8 b shapeCasts_S1x1x8_S8) shapeCasts_S8_S1x8) broadcasts_S1x8_S4096x8)

/-- [4096,8]·[8,16] + bias row. -/
def aff3 (a : FVec F S4096x8 .f32) (w : Vec F S1x8x16 .f32) (b : Vec F S1x1x16 .f32) : FVec F S4096x16 .f32 :=
  addf (matmul dot_S4096x8_S8x16_S4096x16_1_0_0_1_n_n (some .fp32) a (shapeCast S8x16 w shapeCasts_S1x8x16_S8x16) (constant S4096x16 .f32 0x00000000#32))
    (broadcastTo S4096x16 (shapeCast S1x16 (shapeCast S16 b shapeCasts_S1x1x16_S16) shapeCasts_S16_S1x16) broadcasts_S1x16_S4096x16)

/-- [4096,16]·[16,32] + bias row. -/
def aff4 (a : FVec F S4096x16 .f32) (w : Vec F S1x16x32 .f32) (b : Vec F S1x1x32 .f32) : FVec F S4096x32 .f32 :=
  addf (matmul dot_S4096x16_S16x32_S4096x32_1_0_0_1_n_n (some .fp32) a (shapeCast S16x32 w shapeCasts_S1x16x32_S16x32) (constant S4096x32 .f32 0x00000000#32))
    (broadcastTo S4096x32 (shapeCast S1x32 (shapeCast S32 b shapeCasts_S1x1x32_S32) shapeCasts_S32_S1x32) broadcasts_S1x32_S4096x32)

/-- [4096,32]·[32,256] + bias row. -/
def aff5 (a : FVec F S4096x32 .f32) (w : Vec F S1x32x256 .f32) (b : Vec F S1x1x256 .f32) : FVec F S4096x256 .f32 :=
  addf (matmul dot_S4096x32_S32x256_S4096x256_1_0_0_1_n_n (some .fp32) a (shapeCast S32x256 w shapeCasts_S1x32x256_S32x256) (constant S4096x256 .f32 0x00000000#32))
    (broadcastTo S4096x256 (shapeCast S1x256 (shapeCast S256 b shapeCasts_S1x1x256_S256) shapeCasts_S256_S1x256) broadcasts_S1x256_S4096x256)

/-- The cut at zero of a whole vector: the maximum with the splat of the zero word. -/
def cutz {s : Shape} (v : FVec F s .f32) : FVec F s .f32 :=
  maximumf v (broadcast s (Scalar.ofBits .f32 0x00000000#32))

/-- One estimator's stored value: the six layers of its loaded slabs, the logistic, and the unit axis the store adds. -/
def mlp (x : Vec F S4096x1x1x32 .f32)
    (w0 : Vec F S1x32x16 .f32) (b0 : Vec F S1x1x16 .f32) (w1 : Vec F S1x16x8 .f32) (b1 : Vec F S1x1x8 .f32)
    (w2 : Vec F S1x8x8 .f32) (b2 : Vec F S1x1x8 .f32) (w3 : Vec F S1x8x16 .f32) (b3 : Vec F S1x1x16 .f32)
    (w4 : Vec F S1x16x32 .f32) (b4 : Vec F S1x1x32 .f32) (w5 : Vec F S1x32x256 .f32) (b5 : Vec F S1x1x256 .f32) :
    FVec F S1x4096x256 .f32 :=
  shapeCast S1x4096x256 (logistic (aff5 (cutz (aff4 (aff3 (cutz (aff2 (cutz (aff1 (aff0
    (shapeCast S4096x32 x shapeCasts_S4096x1x1x32_S4096x32) w0 b0) w1 b1)) w2 b2)) w3 b3) w4 b4)) w5 b5))
    shapeCasts_S4096x256_S1x4096x256

end Cert.KernelIdeal.Chain

end
-- ==== Proof.KernelChainAt.lean ====
/-
  One estimator's stored value read at an entry of the stored block, on the extended reals: the logistic of the
  specification's six-layer chain of the loaded slabs, each slab read at its own leading-unit index.
-/
import proofs.«401742_j11493332484141_2_alg».proof.Proof.KernelChain

noncomputable section

open scoped BigOperators

namespace Cert.KernelIdeal.Chain

open Cert.KernelIdeal Cert.KernelIdeal.Gen Idealize.ShloMosaic Idealize.ShloMosaic.TcCoe Idealize.ShloMosaic.ValueIdx

/-! ### Layer 0: the product [4096,32]·[32,16]

The product's operand indices, axis by axis: the left operand is read at (row of the output, contracted coordinate), the
right operand at (contracted coordinate, column of the output). -/

theorem lhs0_0 (i : S4096x16.Idx) (q : dot_S4096x32_S32x16_S4096x16_1_0_0_1_n_n.contr.Idx) :
    (dot_S4096x32_S32x16_S4096x16_1_0_0_1_n_n.lhsIdx i q 0).val = (i 0).val := by
  unfold DotDims.lhsIdx
  rw [dif_neg (show ¬(0 : Fin S4096x32.rank) ∈ dot_S4096x32_S32x16_S4096x16_1_0_0_1_n_n.lhsBatch by decide), dif_pos (show (0 : Fin S4096x32.rank) ∈ dot_S4096x32_S32x16_S4096x16_1_0_0_1_n_n.lhsNonContracting by decide)]
  rfl
theorem lhs0_1 (i : S4096x16.Idx) (q : dot_S4096x32_S32x16_S4096x16_1_0_0_1_n_n.contr.Idx) :
    (dot_S4096x32_S32x16_S4096x16_1_0_0_1_n_n.lhsIdx i q 1).val = (q ⟨0, by decide⟩).val :=
  dot_S4096x32_S32x16_S4096x16_1_0_0_1_n_n.lhsIdx_val_of_single rfl i q
theorem rhs0_0 (i : S4096x16.Idx) (q : dot_S4096x32_S32x16_S4096x16_1_0_0_1_n_n.contr.Idx) :
    (dot_S4096x32_S32x16_S4096x16_1_0_0_1_n_n.rhsIdx i q 0).val = (q ⟨0, by decide⟩).val :=
  dot_S4096x32_S32x16_S4096x16_1_0_0_1_n_n.rhsIdx_val_of_single rfl i q
theorem rhs0_1 (i : S4096x16.Idx) (q : dot_S4096x32_S32x16_S4096x16_1_0_0_1_n_n.contr.Idx) :
    (dot_S4096x32_S32x16_S4096x16_1_0_0_1_n_n.rhsIdx i q 1).val = (i 1).val := by
  unfold DotDims.rhsIdx
  rw [dif_neg (show ¬(1 : Fin S32x16.rank) ∈ dot_S4096x32_S32x16_S4096x16_1_0_0_1_n_n.rhsBatch by decide), dif_pos (show (1 : Fin S32x16.rank) ∈ dot_S4096x32_S32x16_S4096x16_1_0_0_1_n_n.rhsNonContracting by decide)]
  rfl

/-- Layer 0 at entry `(r, n)`: the sum over the 32 contracted coordinates of the input row `r` against column `n` of the
    weight slab, plus entry `n` of the bias row; the input is any family `A` the operand reads as. -/
theorem aff0_apply (a : FVec Ideal S4096x32 .f32) (w : Vec Ideal S1x32x16 .f32) (b : Vec Ideal S1x1x16 .f32)
    (A : Fin 4096 → Fin 32 → EReal) (hA : ∀ r k, a (ix2 r k) = A r k) (r : Fin 4096) (n : Fin 16) :
    aff0 (F := Ideal) a w b (ix2 r n) =
      Cert.Bag.dense A (fun k n => w (ix3 (0 : Fin 1) k n)) (fun n => b (ix3 (0 : Fin 1) (0 : Fin 1) n)) r n := by
  unfold aff0 Cert.Bag.dense
  rw [addf_apply]
  congr 1
  · refine (Ideal.matmul_constant_zero_apply dot_S4096x32_S32x16_S4096x16_1_0_0_1_n_n (some .fp32) a (shapeCast S32x16 w shapeCasts_S1x32x16_S32x16) (ix2 r n)).trans ?_
    rw [← Equiv.sum_comp (ValueIdx.contrEquiv1 dot_S4096x32_S32x16_S4096x16_1_0_0_1_n_n 32 rfl rfl).symm]
    refine Finset.sum_congr rfl fun k _ => ?_
    have hk := ValueIdx.contrEquiv1_symm_val dot_S4096x32_S32x16_S4096x16_1_0_0_1_n_n 32 rfl rfl k
    have el : dot_S4096x32_S32x16_S4096x16_1_0_0_1_n_n.lhsIdx (ix2 r n) ((ValueIdx.contrEquiv1 dot_S4096x32_S32x16_S4096x16_1_0_0_1_n_n 32 rfl rfl).symm k) = ix2 r k := funext fun a => Fin.ext (by
      match a with
      | ⟨0, _⟩ => exact lhs0_0 _ _
      | ⟨1, _⟩ => exact (lhs0_1 _ _).trans hk)
    have er : dot_S4096x32_S32x16_S4096x16_1_0_0_1_n_n.rhsIdx (ix2 r n) ((ValueIdx.contrEquiv1 dot_S4096x32_S32x16_S4096x16_1_0_0_1_n_n 32 rfl rfl).symm k) = ix2 k n := funext fun a => Fin.ext (by
      match a with
      | ⟨0, _⟩ => exact (rhs0_0 _ _).trans hk
      | ⟨1, _⟩ => exact rhs0_1 _ _)
    rw [el, er, hA]
    congr 1
    refine shapeCast_apply w shapeCasts_S1x32x16_S32x16 (ix2 k n) (ix3 (0 : Fin 1) k n) ?_
    rw [Shape.rowMajor_val_two, Shape.rowMajor_val_three]
    simp
  · refine (broadcastTo_apply _ broadcasts_S1x16_S4096x16 (ix2 r n) (ix2 (0 : Fin 1) n) ?_).trans ?_
    · intro a
      match a with
      | ⟨0, _⟩ => simp
      | ⟨1, _⟩ => simp
    · refine (shapeCast_apply _ shapeCasts_S16_S1x16 (ix2 (0 : Fin 1) n) (ix1 n) ?_).trans ?_
      · rw [Shape.rowMajor_val_one, Shape.rowMajor_val_two]; simp
      · refine shapeCast_apply b shapeCasts_S1x1x16_S16 (ix1 n) (ix3 (0 : Fin 1) (0 : Fin 1) n) ?_
        rw [Shape.rowMajor_val_one, Shape.rowMajor_val_three]; simp

/-! ### Layer 1: the product [4096,16]·[16,8]

The product's operand indices, axis by axis: the left operand is read at (row of the output, contracted coordinate), the
right operand at (contracted coordinate, column of the output). -/

theorem lhs1_0 (i : S4096x8.Idx) (q : dot_S4096x16_S16x8_S4096x8_1_0_0_1_n_n.contr.Idx) :
    (dot_S4096x16_S16x8_S4096x8_1_0_0_1_n_n.lhsIdx i q 0).val = (i 0).val := by
  unfold DotDims.lhsIdx
  rw [dif_neg (show ¬(0 : Fin S4096x16.rank) ∈ dot_S4096x16_S16x8_S4096x8_1_0_0_1_n_n.lhsBatch by decide), dif_pos (show (0 : Fin S4096x16.rank) ∈ dot_S4096x16_S16x8_S4096x8_1_0_0_1_n_n.lhsNonContracting by decide)]
  rfl
theorem lhs1_1 (i : S4096x8.Idx) (q : dot_S4096x16_S16x8_S4096x8_1_0_0_1_n_n.contr.Idx) :
    (dot_S4096x16_S16x8_S4096x8_1_0_0_1_n_n.lhsIdx i q 1).val = (q ⟨0, by decide⟩).val :=
  dot_S4096x16_S16x8_S4096x8_1_0_0_1_n_n.lhsIdx_val_of_single rfl i q
theorem rhs1_0 (i : S4096x8.Idx) (q : dot_S4096x16_S16x8_S4096x8_1_0_0_1_n_n.contr.Idx) :
    (dot_S4096x16_S16x8_S4096x8_1_0_0_1_n_n.rhsIdx i q 0).val = (q ⟨0, by decide⟩).val :=
  dot_S4096x16_S16x8_S4096x8_1_0_0_1_n_n.rhsIdx_val_of_single rfl i q
theorem rhs1_1 (i : S4096x8.Idx) (q : dot_S4096x16_S16x8_S4096x8_1_0_0_1_n_n.contr.Idx) :
    (dot_S4096x16_S16x8_S4096x8_1_0_0_1_n_n.rhsIdx i q 1).val = (i 1).val := by
  unfold DotDims.rhsIdx
  rw [dif_neg (show ¬(1 : Fin S16x8.rank) ∈ dot_S4096x16_S16x8_S4096x8_1_0_0_1_n_n.rhsBatch by decide), dif_pos (show (1 : Fin S16x8.rank) ∈ dot_S4096x16_S16x8_S4096x8_1_0_0_1_n_n.rhsNonContracting by decide)]
  rfl

/-- Layer 1 at entry `(r, n)`: the sum over the 16 contracted coordinates of the input row `r` against column `n` of the
    weight slab, plus entry `n` of the bias row; the input is any family `A` the operand reads as. -/
theorem aff1_apply (a : FVec Ideal S4096x16 .f32) (w : Vec Ideal S1x16x8 .f32) (b : Vec Ideal S1x1x8 .f32)
    (A : Fin 4096 → Fin 16 → EReal) (hA : ∀ r k, a (ix2 r k) = A r k) (r : Fin 4096) (n : Fin 8) :
    aff1 (F := Ideal) a w b (ix2 r n) =
      Cert.Bag.dense A (fun k n => w (ix3 (0 : Fin 1) k n)) (fun n => b (ix3 (0 : Fin 1) (0 : Fin 1) n)) r n := by
  unfold aff1 Cert.Bag.dense
  rw [addf_apply]
  congr 1
  · refine (Ideal.matmul_constant_zero_apply dot_S4096x16_S16x8_S4096x8_1_0_0_1_n_n (some .fp32) a (shapeCast S16x8 w shapeCasts_S1x16x8_S16x8) (ix2 r n)).trans ?_
    rw [← Equiv.sum_comp (ValueIdx.contrEquiv1 dot_S4096x16_S16x8_S4096x8_1_0_0_1_n_n 16 rfl rfl).symm]
    refine Finset.sum_congr rfl fun k _ => ?_
    have hk := ValueIdx.contrEquiv1_symm_val dot_S4096x16_S16x8_S4096x8_1_0_0_1_n_n 16 rfl rfl k
    have el : dot_S4096x16_S16x8_S4096x8_1_0_0_1_n_n.lhsIdx (ix2 r n) ((ValueIdx.contrEquiv1 dot_S4096x16_S16x8_S4096x8_1_0_0_1_n_n 16 rfl rfl).symm k) = ix2 r k := funext fun a => Fin.ext (by
      match a with
      | ⟨0, _⟩ => exact lhs1_0 _ _
      | ⟨1, _⟩ => exact (lhs1_1 _ _).trans hk)
    have er : dot_S4096x16_S16x8_S4096x8_1_0_0_1_n_n.rhsIdx (ix2 r n) ((ValueIdx.contrEquiv1 dot_S4096x16_S16x8_S4096x8_1_0_0_1_n_n 16 rfl rfl).symm k) = ix2 k n := funext fun a => Fin.ext (by
      match a with
      | ⟨0, _⟩ => exact (rhs1_0 _ _).trans hk
      | ⟨1, _⟩ => exact rhs1_1 _ _)
    rw [el, er, hA]
    congr 1
    refine shapeCast_apply w shapeCasts_S1x16x8_S16x8 (ix2 k n) (ix3 (0 : Fin 1) k n) ?_
    rw [Shape.rowMajor_val_two, Shape.rowMajor_val_three]
    simp
  · refine (broadcastTo_apply _ broadcasts_S1x8_S4096x8 (ix2 r n) (ix2 (0 : Fin 1) n) ?_).trans ?_
    · intro a
      match a with
      | ⟨0, _⟩ => simp
      | ⟨1, _⟩ => simp
    · refine (shapeCast_apply _ shapeCasts_S8_S1x8 (ix2 (0 : Fin 1) n) (ix1 n) ?_).trans ?_
      · rw [Shape.rowMajor_val_one, Shape.rowMajor_val_two]; simp
      · refine shapeCast_apply b shapeCasts_S1x1x8_S8 (ix1 n) (ix3 (0 : Fin 1) (0 : Fin 1) n) ?_
        rw [Shape.rowMajor_val_one, Shape.rowMajor_val_three]; simp

/-! ### Layer 2: the product [4096,8]·[8,8]

The product's operand indices, axis by axis: the left operand is read at (row of the output, contracted coordinate), the
right operand at (contracted coordinate, column of the output). -/

theorem lhs2_0 (i : S4096x8.Idx) (q : dot_S4096x8_S8x8_S4096x8_1_0_0_1_n_n.contr.Idx) :
    (dot_S4096x8_S8x8_S4096x8_1_0_0_1_n_n.lhsIdx i q 0).val = (i 0).val := by
  unfold DotDims.lhsIdx
  rw [dif_neg (show ¬(0 : Fin S4096x8.rank) ∈ dot_S4096x8_S8x8_S4096x8_1_0_0_1_n_n.lhsBatch by decide), dif_pos (show (0 : Fin S4096x8.rank) ∈ dot_S4096x8_S8x8_S4096x8_1_0_0_1_n_n.lhsNonContracting by decide)]
  rfl
theorem lhs2_1 (i : S4096x8.Idx) (q : dot_S4096x8_S8x8_S4096x8_1_0_0_1_n_n.contr.Idx) :
    (dot_S4096x8_S8x8_S4096x8_1_0_0_1_n_n.lhsIdx i q 1).val = (q ⟨0, by decide⟩).val :=
  dot_S4096x8_S8x8_S4096x8_1_0_0_1_n_n.lhsIdx_val_of_single rfl i q
theorem rhs2_0 (i : S4096x8.Idx) (q : dot_S4096x8_S8x8_S4096x8_1_0_0_1_n_n.contr.Idx) :
    (dot_S4096x8_S8x8_S4096x8_1_0_0_1_n_n.rhsIdx i q 0).val = (q ⟨0, by decide⟩).val :=
  dot_S4096x8_S8x8_S4096x8_1_0_0_1_n_n.rhsIdx_val_of_single rfl i q
theorem rhs2_1 (i : S4096x8.Idx) (q : dot_S4096x8_S8x8_S4096x8_1_0_0_1_n_n.contr.Idx) :
    (dot_S4096x8_S8x8_S4096x8_1_0_0_1_n_n.rhsIdx i q 1).val = (i 1).val := by
  unfold DotDims.rhsIdx
  rw [dif_neg (show ¬(1 : Fin S8x8.rank) ∈ dot_S4096x8_S8x8_S4096x8_1_0_0_1_n_n.rhsBatch by decide), dif_pos (show (1 : Fin S8x8.rank) ∈ dot_S4096x8_S8x8_S4096x8_1_0_0_1_n_n.rhsNonContracting by decide)]
  rfl

/-- Layer 2 at entry `(r, n)`: the sum over the 8 contracted coordinates of the input row `r` against column `n` of the
    weight slab, plus entry `n` of the bias row; the input is any family `A` the operand reads as. -/
theorem aff2_apply (a : FVec Ideal S4096x8 .f32) (w : Vec Ideal S1x8x8 .f32) (b : Vec Ideal S1x1x8 .f32)
    (A : Fin 4096 → Fin 8 → EReal) (hA : ∀ r k, a (ix2 r k) = A r k) (r : Fin 4096) (n : Fin 8) :
    aff2 (F := Ideal) a w b (ix2 r n) =
      Cert.Bag.dense A (fun k n => w (ix3 (0 : Fin 1) k n)) (fun n => b (ix3 (0 : Fin 1) (0 : Fin 1) n)) r n := by
  unfold aff2 Cert.Bag.dense
  rw [addf_apply]
  congr 1
  · refine (Ideal.matmul_constant_zero_apply dot_S4096x8_S8x8_S4096x8_1_0_0_1_n_n (some .fp32) a (shapeCast S8x8 w shapeCasts_S1x8x8_S8x8) (ix2 r n)).trans ?_
    rw [← Equiv.sum_comp (ValueIdx.contrEquiv1 dot_S4096x8_S8x8_S4096x8_1_0_0_1_n_n 8 rfl rfl).symm]
    refine Finset.sum_congr rfl fun k _ => ?_
    have hk := ValueIdx.contrEquiv1_symm_val dot_S4096x8_S8x8_S4096x8_1_0_0_1_n_n 8 rfl rfl k
    have el : dot_S4096x8_S8x8_S4096x8_1_0_0_1_n_n.lhsIdx (ix2 r n) ((ValueIdx.contrEquiv1 dot_S4096x8_S8x8_S4096x8_1_0_0_1_n_n 8 rfl rfl).symm k) = ix2 r k := funext fun a => Fin.ext (by
      match a with
      | ⟨0, _⟩ => exact lhs2_0 _ _
      | ⟨1, _⟩ => exact (lhs2_1 _ _).trans hk)
    have er : dot_S4096x8_S8x8_S4096x8_1_0_0_1_n_n.rhsIdx (ix2 r n) ((ValueIdx.contrEquiv1 dot_S4096x8_S8x8_S4096x8_1_0_0_1_n_n 8 rfl rfl).symm k) = ix2 k n := funext fun a => Fin.ext (by
      match a with
      | ⟨0, _⟩ => exact (rhs2_0 _ _).trans hk
      | ⟨1, _⟩ => exact rhs2_1 _ _)
    rw [el, er, hA]
    congr 1
    refine shapeCast_apply w shapeCasts_S1x8x8_S8x8 (ix2 k n) (ix3 (0 : Fin 1) k n) ?_
    rw [Shape.rowMajor_val_two, Shape.rowMajor_val_three]
    simp
  · refine (broadcastTo_apply _ broadcasts_S1x8_S4096x8 (ix2 r n) (ix2 (0 : Fin 1) n) ?_).trans ?_
    · intro a
      match a with
      | ⟨0, _⟩ => simp
      | ⟨1, _⟩ => simp
    · refine (shapeCast_apply _ shapeCasts_S8_S1x8 (ix2 (0 : Fin 1) n) (ix1 n) ?_).trans ?_
      · rw [Shape.rowMajor_val_one, Shape.rowMajor_val_two]; simp
      · refine shapeCast_apply b shapeCasts_S1x1x8_S8 (ix1 n) (ix3 (0 : Fin 1) (0 : Fin 1) n) ?_
        rw [Shape.rowMajor_val_one, Shape.rowMajor_val_three]; simp

/-! ### Layer 3: the product [4096,8]·[8,16]

The product's operand indices, axis by axis: the left operand is read at (row of the output, contracted coordinate), the
right operand at (contracted coordinate, column of the output). -/

theorem lhs3_0 (i : S4096x16.Idx) (q : dot_S4096x8_S8x16_S4096x16_1_0_0_1_n_n.contr.Idx) :
    (dot_S4096x8_S8x16_S4096x16_1_0_0_1_n_n.lhsIdx i q 0).val = (i 0).val := by
  unfold DotDims.lhsIdx
  rw [dif_neg (show ¬(0 : Fin S4096x8.rank) ∈ dot_S4096x8_S8x16_S4096x16_1_0_0_1_n_n.lhsBatch by decide), dif_pos (show (0 : Fin S4096x8.rank) ∈ dot_S4096x8_S8x16_S4096x16_1_0_0_1_n_n.lhsNonContracting by decide)]
  rfl
theorem lhs3_1 (i : S4096x16.Idx) (q : dot_S4096x8_S8x16_S4096x16_1_0_0_1_n_n.contr.Idx) :
    (dot_S4096x8_S8x16_S4096x16_1_0_0_1_n_n.lhsIdx i q 1).val = (q ⟨0, by decide⟩).val :=
  dot_S4096x8_S8x16_S4096x16_1_0_0_1_n_n.lhsIdx_val_of_single rfl i q
theorem rhs3_0 (i : S4096x16.Idx) (q : dot_S4096x8_S8x16_S4096x16_1_0_0_1_n_n.contr.Idx) :
    (dot_S4096x8_S8x16_S4096x16_1_0_0_1_n_n.rhsIdx i q 0).val = (q ⟨0, by decide⟩).val :=
  dot_S4096x8_S8x16_S4096x16_1_0_0_1_n_n.rhsIdx_val_of_single rfl i q
theorem rhs3_1 (i : S4096x16.Idx) (q : dot_S4096x8_S8x16_S4096x16_1_0_0_1_n_n.contr.Idx) :
    (dot_S4096x8_S8x16_S4096x16_1_0_0_1_n_n.rhsIdx i q 1).val = (i 1).val := by
  unfold DotDims.rhsIdx
  rw [dif_neg (show ¬(1 : Fin S8x16.rank) ∈ dot_S4096x8_S8x16_S4096x16_1_0_0_1_n_n.rhsBatch by decide), dif_pos (show (1 : Fin S8x16.rank) ∈ dot_S4096x8_S8x16_S4096x16_1_0_0_1_n_n.rhsNonContracting by decide)]
  rfl

/-- Layer 3 at entry `(r, n)`: the sum over the 8 contracted coordinates of the input row `r` against column `n` of the
    weight slab, plus entry `n` of the bias row; the input is any family `A` the operand reads as. -/
theorem aff3_apply (a : FVec Ideal S4096x8 .f32) (w : Vec Ideal S1x8x16 .f32) (b : Vec Ideal S1x1x16 .f32)
    (A : Fin 4096 → Fin 8 → EReal) (hA : ∀ r k, a (ix2 r k) = A r k) (r : Fin 4096) (n : Fin 16) :
    aff3 (F := Ideal) a w b (ix2 r n) =
      Cert.Bag.dense A (fun k n => w (ix3 (0 : Fin 1) k n)) (fun n => b (ix3 (0 : Fin 1) (0 : Fin 1) n)) r n := by
  unfold aff3 Cert.Bag.dense
  rw [addf_apply]
  congr 1
  · refine (Ideal.matmul_constant_zero_apply dot_S4096x8_S8x16_S4096x16_1_0_0_1_n_n (some .fp32) a (shapeCast S8x16 w shapeCasts_S1x8x16_S8x16) (ix2 r n)).trans ?_
    rw [← Equiv.sum_comp (ValueIdx.contrEquiv1 dot_S4096x8_S8x16_S4096x16_1_0_0_1_n_n 8 rfl rfl).symm]
    refine Finset.sum_congr rfl fun k _ => ?_
    have hk := ValueIdx.contrEquiv1_symm_val dot_S4096x8_S8x16_S4096x16_1_0_0_1_n_n 8 rfl rfl k
    have el : dot_S4096x8_S8x16_S4096x16_1_0_0_1_n_n.lhsIdx (ix2 r n) ((ValueIdx.contrEquiv1 dot_S4096x8_S8x16_S4096x16_1_0_0_1_n_n 8 rfl rfl).symm k) = ix2 r k := funext fun a => Fin.ext (by
      match a with
      | ⟨0, _⟩ => exact lhs3_0 _ _
      | ⟨1, _⟩ => exact (lhs3_1 _ _).trans hk)
    have er : dot_S4096x8_S8x16_S4096x16_1_0_0_1_n_n.rhsIdx (ix2 r n) ((ValueIdx.contrEquiv1 dot_S4096x8_S8x16_S4096x16_1_0_0_1_n_n 8 rfl rfl).symm k) = ix2 k n := funext fun a => Fin.ext (by
      match a with
      | ⟨0, _⟩ => exact (rhs3_0 _ _).trans hk
      | ⟨1, _⟩ => exact rhs3_1 _ _)
    rw [el, er, hA]
    congr 1
    refine shapeCast_apply w shapeCasts_S1x8x16_S8x16 (ix2 k n) (ix3 (0 : Fin 1) k n) ?_
    rw [Shape.rowMajor_val_two, Shape.rowMajor_val_three]
    simp
  · refine (broadcastTo_apply _ broadcasts_S1x16_S4096x16 (ix2 r n) (ix2 (0 : Fin 1) n) ?_).trans ?_
    · intro a
      match a with
      | ⟨0, _⟩ => simp
      | ⟨1, _⟩ => simp
    · refine (shapeCast_apply _ shapeCasts_S16_S1x16 (ix2 (0 : Fin 1) n) (ix1 n) ?_).trans ?_
      · rw [Shape.rowMajor_val_one, Shape.rowMajor_val_two]; simp
      · refine shapeCast_apply b shapeCasts_S1x1x16_S16 (ix1 n) (ix3 (0 : Fin 1) (0 : Fin 1) n) ?_
        rw [Shape.rowMajor_val_one, Shape.rowMajor_val_three]; simp

/-! ### Layer 4: the product [4096,16]·[16,32]

The product's operand indices, axis by axis: the left operand is read at (row of the output, contracted coordinate), the
right operand at (contracted coordinate, column of the output). -/

theorem lhs4_0 (i : S4096x32.Idx) (q : dot_S4096x16_S16x32_S4096x32_1_0_0_1_n_n.contr.Idx) :
    (dot_S4096x16_S16x32_S4096x32_1_0_0_1_n_n.lhsIdx i q 0).val = (i 0).val := by
  unfold DotDims.lhsIdx
  rw [dif_neg (show ¬(0 : Fin S4096x16.rank) ∈ dot_S4096x16_S16x32_S4096x32_1_0_0_1_n_n.lhsBatch by decide), dif_pos (show (0 : Fin S4096x16.rank) ∈ dot_S4096x16_S16x32_S4096x32_1_0_0_1_n_n.lhsNonContracting by decide)]
  rfl
theorem lhs4_1 (i : S4096x32.Idx) (q : dot_S4096x16_S16x32_S4096x32_1_0_0_1_n_n.contr.Idx) :
    (dot_S4096x16_S16x32_S4096x32_1_0_0_1_n_n.lhsIdx i q 1).val = (q ⟨0, by decide⟩).val :=
  dot_S4096x16_S16x32_S4096x32_1_0_0_1_n_n.lhsIdx_val_of_single rfl i q
theorem rhs4_0 (i : S4096x32.Idx) (q : dot_S4096x16_S16x32_S4096x32_1_0_0_1_n_n.contr.Idx) :
    (dot_S4096x16_S16x32_S4096x32_1_0_0_1_n_n.rhsIdx i q 0).val = (q ⟨0, by decide⟩).val :=
  dot_S4096x16_S16x32_S4096x32_1_0_0_1_n_n.rhsIdx_val_of_single rfl i q
theorem rhs4_1 (i : S4096x32.Idx) (q : dot_S4096x16_S16x32_S4096x32_1_0_0_1_n_n.contr.Idx) :
    (dot_S4096x16_S16x32_S4096x32_1_0_0_1_n_n.rhsIdx i q 1).val = (i 1).val := by
  unfold DotDims.rhsIdx
  rw [dif_neg (show ¬(1 : Fin S16x32.rank) ∈ dot_S4096x16_S16x32_S4096x32_1_0_0_1_n_n.rhsBatch by decide), dif_pos (show (1 : Fin S16x32.rank) ∈ dot_S4096x16_S16x32_S4096x32_1_0_0_1_n_n.rhsNonContracting by decide)]
  rfl

/-- Layer 4 at entry `(r, n)`: the sum over the 16 contracted coordinates of the input row `r` against column `n` of the
    weight slab, plus entry `n` of the bias row; the input is any family `A` the operand reads as. -/
theorem aff4_apply (a : FVec Ideal S4096x16 .f32) (w : Vec Ideal S1x16x32 .f32) (b : Vec Ideal S1x1x32 .f32)
    (A : Fin 4096 → Fin 16 → EReal) (hA : ∀ r k, a (ix2 r k) = A r k) (r : Fin 4096) (n : Fin 32) :
    aff4 (F := Ideal) a w b (ix2 r n) =
      Cert.Bag.dense A (fun k n => w (ix3 (0 : Fin 1) k n)) (fun n => b (ix3 (0 : Fin 1) (0 : Fin 1) n)) r n := by
  unfold aff4 Cert.Bag.dense
  rw [addf_apply]
  congr 1
  · refine (Ideal.matmul_constant_zero_apply dot_S4096x16_S16x32_S4096x32_1_0_0_1_n_n (some .fp32) a (shapeCast S16x32 w shapeCasts_S1x16x32_S16x32) (ix2 r n)).trans ?_
    rw [← Equiv.sum_comp (ValueIdx.contrEquiv1 dot_S4096x16_S16x32_S4096x32_1_0_0_1_n_n 16 rfl rfl).symm]
    refine Finset.sum_congr rfl fun k _ => ?_
    have hk := ValueIdx.contrEquiv1_symm_val dot_S4096x16_S16x32_S4096x32_1_0_0_1_n_n 16 rfl rfl k
    have el : dot_S4096x16_S16x32_S4096x32_1_0_0_1_n_n.lhsIdx (ix2 r n) ((ValueIdx.contrEquiv1 dot_S4096x16_S16x32_S4096x32_1_0_0_1_n_n 16 rfl rfl).symm k) = ix2 r k := funext fun a => Fin.ext (by
      match a with
      | ⟨0, _⟩ => exact lhs4_0 _ _
      | ⟨1, _⟩ => exact (lhs4_1 _ _).trans hk)
    have er : dot_S4096x16_S16x32_S4096x32_1_0_0_1_n_n.rhsIdx (ix2 r n) ((ValueIdx.contrEquiv1 dot_S4096x16_S16x32_S4096x32_1_0_0_1_n_n 16 rfl rfl).symm k) = ix2 k n := funext fun a => Fin.ext (by
      match a with
      | ⟨0, _⟩ => exact (rhs4_0 _ _).trans hk
      | ⟨1, _⟩ => exact rhs4_1 _ _)
    rw [el, er, hA]
    congr 1
    refine shapeCast_apply w shapeCasts_S1x16x32_S16x32 (ix2 k n) (ix3 (0 : Fin 1) k n) ?_
    rw [Shape.rowMajor_val_two, Shape.rowMajor_val_three]
    simp
  · refine (broadcastTo_apply _ broadcasts_S1x32_S4096x32 (ix2 r n) (ix2 (0 : Fin 1) n) ?_).trans ?_
    · intro a
      match a with
      | ⟨0, _⟩ => simp
      | ⟨1, _⟩ => simp
    · refine (shapeCast_apply _ shapeCasts_S32_S1x32 (ix2 (0 : Fin 1) n) (ix1 n) ?_).trans ?_
      · rw [Shape.rowMajor_val_one, Shape.rowMajor_val_two]; simp
      · refine shapeCast_apply b shapeCasts_S1x1x32_S32 (ix1 n) (ix3 (0 : Fin 1) (0 : Fin 1) n) ?_
        rw [Shape.rowMajor_val_one, Shape.rowMajor_val_three]; simp

/-! ### Layer 5: the product [4096,32]·[32,256]

The product's operand indices, axis by axis: the left operand is read at (row of the output, contracted coordinate), the
right operand at (contracted coordinate, column of the output). -/

theorem lhs5_0 (i : S4096x256.Idx) (q : dot_S4096x32_S32x256_S4096x256_1_0_0_1_n_n.contr.Idx) :
    (dot_S4096x32_S32x256_S4096x256_1_0_0_1_n_n.lhsIdx i q 0).val = (i 0).val := by
  unfold DotDims.lhsIdx
  rw [dif_neg (show ¬(0 : Fin S4096x32.rank) ∈ dot_S4096x32_S32x256_S4096x256_1_0_0_1_n_n.lhsBatch by decide), dif_pos (show (0 : Fin S4096x32.rank) ∈ dot_S4096x32_S32x256_S4096x256_1_0_0_1_n_n.lhsNonContracting by decide)]
  rfl
theorem lhs5_1 (i : S4096x256.Idx) (q : dot_S4096x32_S32x256_S4096x256_1_0_0_1_n_n.contr.Idx) :
    (dot_S4096x32_S32x256_S4096x256_1_0_0_1_n_n.lhsIdx i q 1).val = (q ⟨0, by decide⟩).val :=
  dot_S4096x32_S32x256_S4096x256_1_0_0_1_n_n.lhsIdx_val_of_single rfl i q
theorem rhs5_0 (i : S4096x256.Idx) (q : dot_S4096x32_S32x256_S4096x256_1_0_0_1_n_n.contr.Idx) :
    (dot_S4096x32_S32x256_S4096x256_1_0_0_1_n_n.rhsIdx i q 0).val = (q ⟨0, by decide⟩).val :=
  dot_S4096x32_S32x256_S4096x256_1_0_0_1_n_n.rhsIdx_val_of_single rfl i q
theorem rhs5_1 (i : S4096x256.Idx) (q : dot_S4096x32_S32x256_S4096x256_1_0_0_1_n_n.contr.Idx) :
    (dot_S4096x32_S32x256_S4096x256_1_0_0_1_n_n.rhsIdx i q 1).val = (i 1).val := by
  unfold DotDims.rhsIdx
  rw [dif_neg (show ¬(1 : Fin S32x256.rank) ∈ dot_S4096x32_S32x256_S4096x256_1_0_0_1_n_n.rhsBatch by decide), dif_pos (show (1 : Fin S32x256.rank) ∈ dot_S4096x32_S32x256_S4096x256_1_0_0_1_n_n.rhsNonContracting by decide)]
  rfl

/-- Layer 5 at entry `(r, n)`: the sum over the 32 contracted coordinates of the input row `r` against column `n` of the
    weight slab, plus entry `n` of the bias row; the input is any family `A` the operand reads as. -/
theorem aff5_apply (a : FVec Ideal S4096x32 .f32) (w : Vec Ideal S1x32x256 .f32) (b : Vec Ideal S1x1x256 .f32)
    (A : Fin 4096 → Fin 32 → EReal) (hA : ∀ r k, a (ix2 r k) = A r k) (r : Fin 4096) (n : Fin 256) :
    aff5 (F := Ideal) a w b (ix2 r n) =
      Cert.Bag.dense A (fun k n => w (ix3 (0 : Fin 1) k n)) (fun n => b (ix3 (0 : Fin 1) (0 : Fin 1) n)) r n := by
  unfold aff5 Cert.Bag.dense
  rw [addf_apply]
  congr 1
  · refine (Ideal.matmul_constant_zero_apply dot_S4096x32_S32x256_S4096x256_1_0_0_1_n_n (some .fp32) a (shapeCast S32x256 w shapeCasts_S1x32x256_S32x256) (ix2 r n)).trans ?_
    rw [← Equiv.sum_comp (ValueIdx.contrEquiv1 dot_S4096x32_S32x256_S4096x256_1_0_0_1_n_n 32 rfl rfl).symm]
    refine Finset.sum_congr rfl fun k _ => ?_
    have hk := ValueIdx.contrEquiv1_symm_val dot_S4096x32_S32x256_S4096x256_1_0_0_1_n_n 32 rfl rfl k
    have el : dot_S4096x32_S32x256_S4096x256_1_0_0_1_n_n.lhsIdx (ix2 r n) ((ValueIdx.contrEquiv1 dot_S4096x32_S32x256_S4096x256_1_0_0_1_n_n 32 rfl rfl).symm k) = ix2 r k := funext fun a => Fin.ext (by
      match a with
      | ⟨0, _⟩ => exact lhs5_0 _ _
      | ⟨1, _⟩ => exact (lhs5_1 _ _).trans hk)
    have er : dot_S4096x32_S32x256_S4096x256_1_0_0_1_n_n.rhsIdx (ix2 r n) ((ValueIdx.contrEquiv1 dot_S4096x32_S32x256_S4096x256_1_0_0_1_n_n 32 rfl rfl).symm k) = ix2 k n := funext fun a => Fin.ext (by
      match a with
      | ⟨0, _⟩ => exact (rhs5_0 _ _).trans hk
      | ⟨1, _⟩ => exact rhs5_1 _ _)
    rw [el, er, hA]
    congr 1
    refine shapeCast_apply w shapeCasts_S1x32x256_S32x256 (ix2 k n) (ix3 (0 : Fin 1) k n) ?_
    rw [Shape.rowMajor_val_two, Shape.rowMajor_val_three]
    simp
  · refine (broadcastTo_apply _ broadcasts_S1x256_S4096x256 (ix2 r n) (ix2 (0 : Fin 1) n) ?_).trans ?_
    · intro a
      match a with
      | ⟨0, _⟩ => simp
      | ⟨1, _⟩ => simp
    · refine (shapeCast_apply _ shapeCasts_S256_S1x256 (ix2 (0 : Fin 1) n) (ix1 n) ?_).trans ?_
      · rw [Shape.rowMajor_val_one, Shape.rowMajor_val_two]; simp
      · refine shapeCast_apply b shapeCasts_S1x1x256_S256 (ix1 n) (ix3 (0 : Fin 1) (0 : Fin 1) n) ?_
        rw [Shape.rowMajor_val_one, Shape.rowMajor_val_three]; simp

/-- The cut at zero at entry `(r, k)`: the maximum of the entry with the zero word, the word left as it is printed. -/
theorem cutz_apply {M N : Nat} (v : FVec Ideal ⟨2, ![M, N]⟩ .f32) (A : Fin M → Fin N → EReal)
    (hA : ∀ r k, v (ix2 r k) = A r k) (r : Fin M) (k : Fin N) :
    cutz (F := Ideal) v (ix2 r k) = Cert.Bag.cut0 A r k := by
  show max (v (ix2 r k)) (Ideal.ofBits .f32 0x00000000#32) = max (A r k) (Ideal.ofBits .f32 0x00000000#32)
  rw [hA]

/-- Entry `(0, r, d)` of the block one estimator stores is the logistic of that estimator's chain at `(r, d)`. -/
theorem mlp_apply (x : Vec Ideal S4096x1x1x32 .f32)
    (w0 : Vec Ideal S1x32x16 .f32) (b0 : Vec Ideal S1x1x16 .f32) (w1 : Vec Ideal S1x16x8 .f32) (b1 : Vec Ideal S1x1x8 .f32)
    (w2 : Vec Ideal S1x8x8 .f32) (b2 : Vec Ideal S1x1x8 .f32) (w3 : Vec Ideal S1x8x16 .f32) (b3 : Vec Ideal S1x1x16 .f32)
    (w4 : Vec Ideal S1x16x32 .f32) (b4 : Vec Ideal S1x1x32 .f32) (w5 : Vec Ideal S1x32x256 .f32) (b5 : Vec Ideal S1x1x256 .f32)
    (r : Fin 4096) (d : Fin 256) :
    mlp (F := Ideal) x w0 b0 w1 b1 w2 b2 w3 b3 w4 b4 w5 b5 (ix3 (0 : Fin 1) r d) =
      Ideal.logistic (Cert.Bag.chain (fun r f => x (ix4 r (0 : Fin 1) (0 : Fin 1) f))
        (fun f h => w0 (ix3 (0 : Fin 1) f h)) (fun h => b0 (ix3 (0 : Fin 1) (0 : Fin 1) h))
        (fun h l => w1 (ix3 (0 : Fin 1) h l)) (fun l => b1 (ix3 (0 : Fin 1) (0 : Fin 1) l))
        (fun l p => w2 (ix3 (0 : Fin 1) l p)) (fun p => b2 (ix3 (0 : Fin 1) (0 : Fin 1) p))
        (fun p h => w3 (ix3 (0 : Fin 1) p h)) (fun h => b3 (ix3 (0 : Fin 1) (0 : Fin 1) h))
        (fun h f => w4 (ix3 (0 : Fin 1) h f)) (fun f => b4 (ix3 (0 : Fin 1) (0 : Fin 1) f))
        (fun f d => w5 (ix3 (0 : Fin 1) f d)) (fun d => b5 (ix3 (0 : Fin 1) (0 : Fin 1) d)) r d) := by
  -- the loaded slice, its two unit axes dropped, reads entry (r, f) at (r, 0, 0, f)
  have h0 : ∀ (r : Fin 4096) (f : Fin 32), shapeCast S4096x32 x shapeCasts_S4096x1x1x32_S4096x32 (ix2 r f) =
      (fun r f => x (ix4 r (0 : Fin 1) (0 : Fin 1) f)) r f := fun r f => by
    refine shapeCast_apply x shapeCasts_S4096x1x1x32_S4096x32 (ix2 r f) (ix4 r (0 : Fin 1) (0 : Fin 1) f) ?_
    rw [Shape.rowMajor_val_two, Shape.rowMajor_val_four]; simp
  -- layer by layer, each layer fed the family the layer before it reads as
  have e0 := aff0_apply (shapeCast S4096x32 x shapeCasts_S4096x1x1x32_S4096x32) w0 b0 _ h0
  have e1 := aff1_apply _ w1 b1 _ e0
  have c1 := cutz_apply _ _ e1
  have e2 := aff2_apply _ w2 b2 _ c1
  have c2 := cutz_apply _ _ e2
  have e3 := aff3_apply _ w3 b3 _ c2
  have e4 := aff4_apply _ w4 b4 _ e3
  have c4 := cutz_apply _ _ e4
  have e5 := aff5_apply _ w5 b5 _ c4
  -- the stored block's leading unit axis, then the logistic entry by entry
  unfold mlp Cert.Bag.chain
  refine (shapeCast_apply _ shapeCasts_S4096x256_S1x4096x256 (ix3 (0 : Fin 1) r d) (ix2 r d) ?_).trans ?_
  · rw [Shape.rowMajor_val_two, Shape.rowMajor_val_three]; simp
  · exact congrArg Ideal.logistic (e5 r d)

end Cert.KernelIdeal.Chain

end
-- ==== Proof.KernelBlock.lean ====
/-
  What one grid point's body leaves in its [4, 4096, 256] output block, as ONE function of the thirteen input blocks.
  The body stores four slabs, one per estimator of the tile; slab `e` is the chain of slab `e` of every input block, so
  entry `(e, r, d)` of the block is the logistic of the six-layer chain fed with row `e` of each block.  The four stores
  tile the block, so the block is that function everywhere.
-/
import proofs.«401742_j11493332484141_2_alg».proof.Proof.Gen.KernelIdeal.Frame
import proofs.«401742_j11493332484141_2_alg».proof.Proof.KernelChainAt

set_option maxRecDepth 16384

noncomputable section

open scoped BigOperators

namespace Cert.KernelIdeal.Block

open Cert.KernelIdeal Cert.KernelIdeal.Gen Cert.KernelIdeal.Chain Idealize.ShloMosaic Idealize.ShloMosaic.TcCoe Idealize.ShloMosaic.ValueIdx

/-! ## Slab `e` of a four-slab buffer, index by index -/

/-- In a rank-3 buffer of four slabs, the unit-stride rectangle of slab `e` places `(0, k, n)` at `(e, k, n)`. -/
theorem slab3 {n1 n2 : Nat} (e : Fin 4)
    (inb : ∀ a, (![e.val, 0, 0] : Fin 3 → Nat) a + (⟨3, ![1, n1, n2]⟩ : Shape).size a ≤ (⟨3, ![4, n1, n2]⟩ : Shape).size a)
    (z : Fin 1) (k : Fin n1) (n : Fin n2) :
    (Rect.unit (s := ⟨3, ![4, n1, n2]⟩) ![e.val, 0, 0] (⟨3, ![1, n1, n2]⟩ : Shape).size inb).idx (ix3 z k n) = ix3 e k n := by
  funext a; apply Fin.ext
  match a with
  | ⟨0, _⟩ => show e.val + 1 * z.val = e.val; have := z.isLt; omega
  | ⟨1, _⟩ => show 0 + 1 * k.val = k.val; omega
  | ⟨2, _⟩ => show 0 + 1 * n.val = n.val; omega

/-- In the gathered-batch block [4096, 4, 1, 32], estimator `e`'s rectangle places `(r, 0, 0, f)` at `(r, e, 0, f)`. -/
theorem slab4 (e : Fin 4)
    (inb : ∀ a, (![0, e.val, 0, 0] : Fin 4 → Nat) a + (⟨4, ![4096, 1, 1, 32]⟩ : Shape).size a ≤ (⟨4, ![4096, 4, 1, 32]⟩ : Shape).size a)
    (r : Fin 4096) (z z' : Fin 1) (f : Fin 32) :
    (Rect.unit (s := ⟨4, ![4096, 4, 1, 32]⟩) ![0, e.val, 0, 0] (⟨4, ![4096, 1, 1, 32]⟩ : Shape).size inb).idx (ix4 r z z' f) = ix4 r e z' f := by
  funext a; apply Fin.ext
  match a with
  | ⟨0, _⟩ => show 0 + 1 * r.val = r.val; omega
  | ⟨1, _⟩ => show e.val + 1 * z.val = e.val; have := z.isLt; omega
  | ⟨2, _⟩ => show 0 + 1 * z'.val = z'.val; omega
  | ⟨3, _⟩ => show 0 + 1 * f.val = f.val; omega

/-! ## The block as one function -/

/-- Entry `(e, r, d)` of the output block: the logistic of the chain of row `e` of each input block, at `(r, d)`. -/
def blockOut (x0 : Vec Ideal S4096x4x1x32 .f32) (x1 : Vec Ideal S4x32x16 .f32) (x2 : Vec Ideal S4x1x16 .f32)
    (x3 : Vec Ideal S4x16x8 .f32) (x4 : Vec Ideal S4x1x8 .f32) (x5 : Vec Ideal S4x8x8 .f32) (x6 : Vec Ideal S4x1x8 .f32)
    (x7 : Vec Ideal S4x8x16 .f32) (x8 : Vec Ideal S4x1x16 .f32) (x9 : Vec Ideal S4x16x32 .f32) (x10 : Vec Ideal S4x1x32 .f32)
    (x11 : Vec Ideal S4x32x256 .f32) (x12 : Vec Ideal S4x1x256 .f32) : Vec Ideal S4x4096x256 .f32 :=
  fun y => Ideal.logistic (Cert.Bag.chain (fun r f => x0 (ix4 r (y 0) (0 : Fin 1) f))
    (fun f h => x1 (ix3 (y 0) f h)) (fun h => x2 (ix3 (y 0) (0 : Fin 1) h))
    (fun h l => x3 (ix3 (y 0) h l)) (fun l => x4 (ix3 (y 0) (0 : Fin 1) l))
    (fun l p => x5 (ix3 (y 0) l p)) (fun p => x6 (ix3 (y 0) (0 : Fin 1) p))
    (fun p h => x7 (ix3 (y 0) p h)) (fun h => x8 (ix3 (y 0) (0 : Fin 1) h))
    (fun h f => x9 (ix3 (y 0) h f)) (fun f => x10 (ix3 (y 0) (0 : Fin 1) f))
    (fun f d => x11 (ix3 (y 0) f d)) (fun d => x12 (ix3 (y 0) (0 : Fin 1) d)) (y 1) (y 2))

/-- The slab estimator `e` of the tile stores is the block function on slab `e`: its loads are row `e` of each input
    block, and the chain read at an entry is the specification's chain of those rows. -/
theorem slab_eq (e : Fin 4) (x0 : Vec Ideal S4096x4x1x32 .f32) (x1 : Vec Ideal S4x32x16 .f32) (x2 : Vec Ideal S4x1x16 .f32)
    (x3 : Vec Ideal S4x16x8 .f32) (x4 : Vec Ideal S4x1x8 .f32) (x5 : Vec Ideal S4x8x8 .f32) (x6 : Vec Ideal S4x1x8 .f32)
    (x7 : Vec Ideal S4x8x16 .f32) (x8 : Vec Ideal S4x1x16 .f32) (x9 : Vec Ideal S4x16x32 .f32) (x10 : Vec Ideal S4x1x32 .f32)
    (x11 : Vec Ideal S4x32x256 .f32) (x12 : Vec Ideal S4x1x256 .f32)
    (i0 : ∀ a, (![0, e.val, 0, 0] : Fin 4 → Nat) a + S4096x1x1x32.size a ≤ S4096x4x1x32.size a)
    (i1 : ∀ a, (![e.val, 0, 0] : Fin 3 → Nat) a + S1x32x16.size a ≤ S4x32x16.size a)
    (i2 : ∀ a, (![e.val, 0, 0] : Fin 3 → Nat) a + S1x1x16.size a ≤ S4x1x16.size a)
    (i3 : ∀ a, (![e.val, 0, 0] : Fin 3 → Nat) a + S1x16x8.size a ≤ S4x16x8.size a)
    (i4 : ∀ a, (![e.val, 0, 0] : Fin 3 → Nat) a + S1x1x8.size a ≤ S4x1x8.size a)
    (i5 : ∀ a, (![e.val, 0, 0] : Fin 3 → Nat) a + S1x8x8.size a ≤ S4x8x8.size a)
    (i7 : ∀ a, (![e.val, 0, 0] : Fin 3 → Nat) a + S1x8x16.size a ≤ S4x8x16.size a)
    (i9 : ∀ a, (![e.val, 0, 0] : Fin 3 → Nat) a + S1x16x32.size a ≤ S4x16x32.size a)
    (i10 : ∀ a, (![e.val, 0, 0] : Fin 3 → Nat) a + S1x1x32.size a ≤ S4x1x32.size a)
    (i11 : ∀ a, (![e.val, 0, 0] : Fin 3 → Nat) a + S1x32x256.size a ≤ S4x32x256.size a)
    (i12 : ∀ a, (![e.val, 0, 0] : Fin 3 → Nat) a + S1x1x256.size a ≤ S4x1x256.size a)
    (io : ∀ a, (![e.val, 0, 0] : Fin 3 → Nat) a + S1x4096x256.size a ≤ S4x4096x256.size a)
    (x : S1x4096x256.Idx) :
    mlp (F := Ideal) (View.ld x0 (Rect.unit (s := S4096x4x1x32) ![0, e.val, 0, 0] S4096x1x1x32.size i0))
      (View.ld x1 (Rect.unit (s := S4x32x16) ![e.val, 0, 0] S1x32x16.size i1))
      (View.ld x2 (Rect.unit (s := S4x1x16) ![e.val, 0, 0] S1x1x16.size i2))
      (View.ld x3 (Rect.unit (s := S4x16x8) ![e.val, 0, 0] S1x16x8.size i3))
      (View.ld x4 (Rect.unit (s := S4x1x8) ![e.val, 0, 0] S1x1x8.size i4))
      (View.ld x5 (Rect.unit (s := S4x8x8) ![e.val, 0, 0] S1x8x8.size i5))
      (View.ld x6 (Rect.unit (s := S4x1x8) ![e.val, 0, 0] S1x1x8.size i4))
      (View.ld x7 (Rect.unit (s := S4x8x16) ![e.val, 0, 0] S1x8x16.size i7))
      (View.ld x8 (Rect.unit (s := S4x1x16) ![e.val, 0, 0] S1x1x16.size i2))
      (View.ld x9 (Rect.unit (s := S4x16x32) ![e.val, 0, 0] S1x16x32.size i9))
      (View.ld x10 (Rect.unit (s := S4x1x32) ![e.val, 0, 0] S1x1x32.size i10))
      (View.ld x11 (Rect.unit (s := S4x32x256) ![e.val, 0, 0] S1x32x256.size i11))
      (View.ld x12 (Rect.unit (s := S4x1x256) ![e.val, 0, 0] S1x1x256.size i12)) x
    = blockOut x0 x1 x2 x3 x4 x5 x6 x7 x8 x9 x10 x11 x12
        ((Rect.unit (s := S4x4096x256) ![e.val, 0, 0] S1x4096x256.size io).emb x) := by
  obtain ⟨z, r, d, rfl⟩ : ∃ (z : Fin 1) (r : Fin 4096) (d : Fin 256), x = ix3 z r d := ⟨x 0, x 1, x 2, eq_ix3 x⟩
  obtain rfl : z = 0 := Subsingleton.elim _ _
  rw [mlp_apply]
  have eo : (Rect.unit (s := S4x4096x256) ![e.val, 0, 0] S1x4096x256.size io).emb (ix3 (0 : Fin 1) r d) = ix3 e r d :=
    slab3 e io 0 r d
  rw [eo]
  show _ = Ideal.logistic (Cert.Bag.chain (fun r f => x0 (ix4 r e (0 : Fin 1) f))
    (fun f h => x1 (ix3 e f h)) (fun h => x2 (ix3 e (0 : Fin 1) h))
    (fun h l => x3 (ix3 e h l)) (fun l => x4 (ix3 e (0 : Fin 1) l))
    (fun l p => x5 (ix3 e l p)) (fun p => x6 (ix3 e (0 : Fin 1) p))
    (fun p h => x7 (ix3 e p h)) (fun h => x8 (ix3 e (0 : Fin 1) h))
    (fun h f => x9 (ix3 e h f)) (fun f => x10 (ix3 e (0 : Fin 1) f))
    (fun f d => x11 (ix3 e f d)) (fun d => x12 (ix3 e (0 : Fin 1) d)) r d)
  have h0 : ∀ (r : Fin 4096) (f : Fin 32), View.ld x0 (Rect.unit (s := S4096x4x1x32) ![0, e.val, 0, 0] S4096x1x1x32.size i0) (ix4 r (0 : Fin 1) (0 : Fin 1) f) = x0 (ix4 r e (0 : Fin 1) f) :=
    fun r f => congrArg x0 (slab4 e i0 r 0 0 f)
  have h1 : ∀ (f : Fin 32) (h : Fin 16), View.ld x1 (Rect.unit (s := S4x32x16) ![e.val, 0, 0] S1x32x16.size i1) (ix3 (0 : Fin 1) f h) = x1 (ix3 e f h) :=
    fun f h => congrArg x1 (slab3 e i1 0 f h)
  have h2 : ∀ (h : Fin 16), View.ld x2 (Rect.unit (s := S4x1x16) ![e.val, 0, 0] S1x1x16.size i2) (ix3 (0 : Fin 1) (0 : Fin 1) h) = x2 (ix3 e (0 : Fin 1) h) :=
    fun h => congrArg x2 (slab3 e i2 0 0 h)
  have h3 : ∀ (h : Fin 16) (l : Fin 8), View.ld x3 (Rect.unit (s := S4x16x8) ![e.val, 0, 0] S1x16x8.size i3) (ix3 (0 : Fin 1) h l) = x3 (ix3 e h l) :=
    fun h l => congrArg x3 (slab3 e i3 0 h l)
  have h4 : ∀ (l : Fin 8), View.ld x4 (Rect.unit (s := S4x1x8) ![e.val, 0, 0] S1x1x8.size i4) (ix3 (0 : Fin 1) (0 : Fin 1) l) = x4 (ix3 e (0 : Fin 1) l) :=
    fun l => congrArg x4 (slab3 e i4 0 0 l)
  have h5 : ∀ (l p : Fin 8), View.ld x5 (Rect.unit (s := S4x8x8) ![e.val, 0, 0] S1x8x8.size i5) (ix3 (0 : Fin 1) l p) = x5 (ix3 e l p) :=
    fun l p => congrArg x5 (slab3 e i5 0 l p)
  have h6 : ∀ (p : Fin 8), View.ld x6 (Rect.unit (s := S4x1x8) ![e.val, 0, 0] S1x1x8.size i4) (ix3 (0 : Fin 1) (0 : Fin 1) p) = x6 (ix3 e (0 : Fin 1) p) :=
    fun p => congrArg x6 (slab3 e i4 0 0 p)
  have h7 : ∀ (p : Fin 8) (h : Fin 16), View.ld x7 (Rect.unit (s := S4x8x16) ![e.val, 0, 0] S1x8x16.size i7) (ix3 (0 : Fin 1) p h) = x7 (ix3 e p h) :=
    fun p h => congrArg x7 (slab3 e i7 0 p h)
  have h8 : ∀ (h : Fin 16), View.ld x8 (Rect.unit (s := S4x1x16) ![e.val, 0, 0] S1x1x16.size i2) (ix3 (0 : Fin 1) (0 : Fin 1) h) = x8 (ix3 e (0 : Fin 1) h) :=
    fun h => congrArg x8 (slab3 e i2 0 0 h)
  have h9 : ∀ (h : Fin 16) (f : Fin 32), View.ld x9 (Rect.unit (s := S4x16x32) ![e.val, 0, 0] S1x16x32.size i9) (ix3 (0 : Fin 1) h f) = x9 (ix3 e h f) :=
    fun h f => congrArg x9 (slab3 e i9 0 h f)
  have h10 : ∀ (f : Fin 32), View.ld x10 (Rect.unit (s := S4x1x32) ![e.val, 0, 0] S1x1x32.size i10) (ix3 (0 : Fin 1) (0 : Fin 1) f) = x10 (ix3 e (0 : Fin 1) f) :=
    fun f => congrArg x10 (slab3 e i10 0 0 f)
  have h11 : ∀ (f : Fin 32) (d : Fin 256), View.ld x11 (Rect.unit (s := S4x32x256) ![e.val, 0, 0] S1x32x256.size i11) (ix3 (0 : Fin 1) f d) = x11 (ix3 e f d) :=
    fun f d => congrArg x11 (slab3 e i11 0 f d)
  have h12 : ∀ (d : Fin 256), View.ld x12 (Rect.unit (s := S4x1x256) ![e.val, 0, 0] S1x1x256.size i12) (ix3 (0 : Fin 1) (0 : Fin 1) d) = x12 (ix3 e (0 : Fin 1) d) :=
    fun d => congrArg x12 (slab3 e i12 0 0 d)
  simp only [h0, h1, h2, h3, h4, h5, h6, h7, h8, h9, h10, h11, h12]

/-- The body's four stores, slab by slab, leave the block function: each store's value is the block function on its
    slab, and the slabs tile the block. -/
theorem out_eq (x0 : Vec Ideal S4096x4x1x32 .f32) (x1 : Vec Ideal S4x32x16 .f32) (x2 : Vec Ideal S4x1x16 .f32)
    (x3 : Vec Ideal S4x16x8 .f32) (x4 : Vec Ideal S4x1x8 .f32) (x5 : Vec Ideal S4x8x8 .f32) (x6 : Vec Ideal S4x1x8 .f32)
    (x7 : Vec Ideal S4x8x16 .f32) (x8 : Vec Ideal S4x1x16 .f32) (x9 : Vec Ideal S4x16x32 .f32) (x10 : Vec Ideal S4x1x32 .f32)
    (x11 : Vec Ideal S4x32x256 .f32) (x12 : Vec Ideal S4x1x256 .f32) :
    out0_13 (F := Ideal) x0 x1 x2 x3 x4 x5 x6 x7 x8 x9 x10 x11 x12 = blockOut x0 x1 x2 x3 x4 x5 x6 x7 x8 x9 x10 x11 x12 := by
  funext y
  unfold out0_13
  refine View.canon_apply_of_pieces (blockOut x0 x1 x2 x3 x4 x5 x6 x7 x8 x9 x10 x11 x12) _ ?_ y (cover0_13 _ _ _ _ y)
  intro p hp x
  simp only [List.mem_cons, List.mem_nil_iff, or_false] at hp
  rcases hp with rfl | rfl | rfl | rfl
  · exact slab_eq 3 x0 x1 x2 x3 x4 x5 x6 x7 x8 x9 x10 x11 x12 inb_S4096x4x1x32_S4096x1x1x32_0_3_0_0 inb_S4x32x16_S1x32x16_3_0_0 inb_S4x1x16_S1x1x16_3_0_0 inb_S4x16x8_S1x16x8_3_0_0 inb_S4x1x8_S1x1x8_3_0_0 inb_S4x8x8_S1x8x8_3_0_0 inb_S4x8x16_S1x8x16_3_0_0 inb_S4x16x32_S1x16x32_3_0_0 inb_S4x1x32_S1x1x32_3_0_0 inb_S4x32x256_S1x32x256_3_0_0 inb_S4x1x256_S1x1x256_3_0_0 inb_S4x4096x256_S1x4096x256_3_0_0 x
  · exact slab_eq 2 x0 x1 x2 x3 x4 x5 x6 x7 x8 x9 x10 x11 x12 inb_S4096x4x1x32_S4096x1x1x32_0_2_0_0 inb_S4x32x16_S1x32x16_2_0_0 inb_S4x1x16_S1x1x16_2_0_0 inb_S4x16x8_S1x16x8_2_0_0 inb_S4x1x8_S1x1x8_2_0_0 inb_S4x8x8_S1x8x8_2_0_0 inb_S4x8x16_S1x8x16_2_0_0 inb_S4x16x32_S1x16x32_2_0_0 inb_S4x1x32_S1x1x32_2_0_0 inb_S4x32x256_S1x32x256_2_0_0 inb_S4x1x256_S1x1x256_2_0_0 inb_S4x4096x256_S1x4096x256_2_0_0 x
  · exact slab_eq 1 x0 x1 x2 x3 x4 x5 x6 x7 x8 x9 x10 x11 x12 inb_S4096x4x1x32_S4096x1x1x32_0_1_0_0 inb_S4x32x16_S1x32x16_1_0_0 inb_S4x1x16_S1x1x16_1_0_0 inb_S4x16x8_S1x16x8_1_0_0 inb_S4x1x8_S1x1x8_1_0_0 inb_S4x8x8_S1x8x8_1_0_0 inb_S4x8x16_S1x8x16_1_0_0 inb_S4x16x32_S1x16x32_1_0_0 inb_S4x1x32_S1x1x32_1_0_0 inb_S4x32x256_S1x32x256_1_0_0 inb_S4x1x256_S1x1x256_1_0_0 inb_S4x4096x256_S1x4096x256_1_0_0 x
  · exact slab_eq 0 x0 x1 x2 x3 x4 x5 x6 x7 x8 x9 x10 x11 x12 inb_S4096x4x1x32_S4096x1x1x32_0_0_0_0 inb_S4x32x16_S1x32x16_0_0_0 inb_S4x1x16_S1x1x16_0_0_0 inb_S4x16x8_S1x16x8_0_0_0 inb_S4x1x8_S1x1x8_0_0_0 inb_S4x8x8_S1x8x8_0_0_0 inb_S4x8x16_S1x8x16_0_0_0 inb_S4x16x32_S1x16x32_0_0_0 inb_S4x1x32_S1x1x32_0_0_0 inb_S4x32x256_S1x32x256_0_0_0 inb_S4x1x256_S1x1x256_0_0_0 inb_S4x4096x256_S1x4096x256_0_0_0 x

end Cert.KernelIdeal.Block

end
-- ==== Proof.KernelHost.lean ====
/-
  The arrays the kernel's region finds, where @main's host operations wrote them: the gathered batch with a unit axis
  inserted (behind the first window) and the six bias arrays with a unit axis inserted (behind every second window), each
  read at an index in terms of what it was made from.  The gather and the index normalisation before it are left as one
  unopened term, `gathered`: the reference performs the very same operations.
-/
import proofs.«401742_j11493332484141_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The gathered batch [4096, 100, 32] as @main computes it from the batch `x` and the feature indices `idx`: a negative
    index is shifted by 256, then row `r` of the batch is read at the 32 indices of each estimator. -/
def gathered (c : Dev nD) : FVec Ideal S4096x100x32 .f32 :=
  Host.gather gather_S4096x256_S100x32x1_S4096x100x32_0_1_n_n_1_2_40961 (m ((c : Thread nD τ).loc main_arg0))
    (broadcastInDim S100x32x1 ![0, 1] bcast_S100x32_S100x32x1_0_1
      (select (cmpi .slt (m ((c : Thread nD τ).loc main_arg1)) (broadcastInDim S100x32 ![] bcast_S_S100x32 (constantI S_ 32 0#32)))
        (addi (m ((c : Thread nD τ).loc main_arg1)) (broadcastInDim S100x32 ![] bcast_S_S100x32 (constantI S_ 32 256#32)))
        (m ((c : Thread nD τ).loc main_arg1))))

/-- The first window's array, [4096, 100, 1, 32], is the gathered batch with a unit axis inserted. -/
theorem xg_at (c : Dev nD) (r : Fin 4096) (e : Fin 100) (f : Fin 32) :
    V m c main_v7 (ix4 r e (0 : Fin 1) f) = gathered m c (ix3 r e f) := by
  -- the whole array: the gathered batch laid out with a unit axis between the estimator and the feature axes
  have e1 : (V m c main_v7 : S4096x100x1x32.Idx → EReal) =
      broadcastInDim S4096x100x1x32 ![0, 1, 3] bcast_S4096x100x32_S4096x100x1x32_0_1_3 (gathered m c) := by
    dsimp only [Gen.V, Gen.hostOps0]
    after_results
    rfl
  refine (congrFun e1 (ix4 r e (0 : Fin 1) f)).trans ?_
  exact broadcastInDim_apply _ bcast_S4096x100x32_S4096x100x1x32_0_1_3 (gathered m c) (ix4 r e (0 : Fin 1) f) (ix3 r e f) (fun a => match a with
    | ⟨0, _⟩ => by show r.val = if (4096 : Nat) = 1 then 0 else r.val; rw [if_neg (by decide)]
    | ⟨1, _⟩ => by show e.val = if (100 : Nat) = 1 then 0 else e.val; rw [if_neg (by decide)]
    | ⟨2, _⟩ => by show f.val = if (32 : Nat) = 1 then 0 else f.val; rw [if_neg (by decide)])

/-- The bias arrays as the region finds them, [100, 1, n]: entry `(e, 0, j)` is entry `(e, j)` of the argument. -/
theorem be0_at (c : Dev nD) (e : Fin 100) (j : Fin 16) :
    V m c main_v8 (ix3 e (0 : Fin 1) j) = m ((c : Thread nD τ).loc main_arg3) (ix2 e j) := by
  -- the whole array: the argument reshaped, so entry (e, 0, j) has the row-major position e * 16 + j of entry (e, j)
  have e1 : (V m c main_v8 : S100x1x16.Idx → EReal) =
      shapeCast S100x1x16 (m ((c : Thread nD τ).loc main_arg3)) shapeCasts_S100x16_S100x1x16 := by
    dsimp only [Gen.V, Gen.hostOps0]
    after_results
    rfl
  refine (congrFun e1 (ix3 e (0 : Fin 1) j)).trans ?_
  refine shapeCast_apply _ shapeCasts_S100x16_S100x1x16 (ix3 e (0 : Fin 1) j) (ix2 e j) ?_
  rw [Shape.rowMajor_val_two, Shape.rowMajor_val_three]; simp
theorem be1_at (c : Dev nD) (e : Fin 100) (j : Fin 8) :
    V m c main_v9 (ix3 e (0 : Fin 1) j) = m ((c : Thread nD τ).loc main_arg5) (ix2 e j) := by
  -- the whole array: the argument reshaped, so entry (e, 0, j) has the row-major position e * 8 + j of entry (e, j)
  have e1 : (V m c main_v9 : S100x1x8.Idx → EReal) =
      shapeCast S100x1x8 (m ((c : Thread nD τ).loc main_arg5)) shapeCasts_S100x8_S100x1x8 := by
    dsimp only [Gen.V, Gen.hostOps0]
    after_results
    rfl
  refine (congrFun e1 (ix3 e (0 : Fin 1) j)).trans ?_
  refine shapeCast_apply _ shapeCasts_S100x8_S100x1x8 (ix3 e (0 : Fin 1) j) (ix2 e j) ?_
  rw [Shape.rowMajor_val_two, Shape.rowMajor_val_three]; simp
theorem bl_at (c : Dev nD) (e : Fin 100) (j : Fin 8) :
    V m c main_v10 (ix3 e (0 : Fin 1) j) = m ((c : Thread nD τ).loc main_arg7) (ix2 e j) := by
  -- the whole array: the argument reshaped, so entry (e, 0, j) has the row-major position e * 8 + j of entry (e, j)
  have e1 : (V m c main_v10 : S100x1x8.Idx → EReal) =
      shapeCast S100x1x8 (m ((c : Thread nD τ).loc main_arg7)) shapeCasts_S100x8_S100x1x8 := by
    dsimp only [Gen.V, Gen.hostOps0]
    after_results
    rfl
  refine (congrFun e1 (ix3 e (0 : Fin 1) j)).trans ?_
  refine shapeCast_apply _ shapeCasts_S100x8_S100x1x8 (ix3 e (0 : Fin 1) j) (ix2 e j) ?_
  rw [Shape.rowMajor_val_two, Shape.rowMajor_val_three]; simp
theorem bd0_at (c : Dev nD) (e : Fin 100) (j : Fin 16) :
    V m c main_v11 (ix3 e (0 : Fin 1) j) = m ((c : Thread nD τ).loc main_arg9) (ix2 e j) := by
  -- the whole array: the argument reshaped, so entry (e, 0, j) has the row-major position e * 16 + j of entry (e, j)
  have e1 : (V m c main_v11 : S100x1x16.Idx → EReal) =
      shapeCast S100x1x16 (m ((c : Thread nD τ).loc main_arg9)) shapeCasts_S100x16_S100x1x16 := by
    dsimp only [Gen.V, Gen.hostOps0]
    after_results
    rfl
  refine (congrFun e1 (ix3 e (0 : Fin 1) j)).trans ?_
  refine shapeCast_apply _ shapeCasts_S100x16_S100x1x16 (ix3 e (0 : Fin 1) j) (ix2 e j) ?_
  rw [Shape.rowMajor_val_two, Shape.rowMajor_val_three]; simp
theorem bd1_at (c : Dev nD) (e : Fin 100) (j : Fin 32) :
    V m c main_v12 (ix3 e (0 : Fin 1) j) = m ((c : Thread nD τ).loc main_arg11) (ix2 e j) := by
  -- the whole array: the argument reshaped, so entry (e, 0, j) has the row-major position e * 32 + j of entry (e, j)
  have e1 : (V m c main_v12 : S100x1x32.Idx → EReal) =
      shapeCast S100x1x32 (m ((c : Thread nD τ).loc main_arg11)) shapeCasts_S100x32_S100x1x32 := by
    dsimp only [Gen.V, Gen.hostOps0]
    after_results
    rfl
  refine (congrFun e1 (ix3 e (0 : Fin 1) j)).trans ?_
  refine shapeCast_apply _ shapeCasts_S100x32_S100x1x32 (ix3 e (0 : Fin 1) j) (ix2 e j) ?_
  rw [Shape.rowMajor_val_two, Shape.rowMajor_val_three]; simp
theorem bo_at (c : Dev nD) (e : Fin 100) (j : Fin 256) :
    V m c main_v13 (ix3 e (0 : Fin 1) j) = m ((c : Thread nD τ).loc main_arg13) (ix2 e j) := by
  -- the whole array: the argument reshaped, so entry (e, 0, j) has the row-major position e * 256 + j of entry (e, j)
  have e1 : (V m c main_v13 : S100x1x256.Idx → EReal) =
      shapeCast S100x1x256 (m ((c : Thread nD τ).loc main_arg13)) shapeCasts_S100x256_S100x1x256 := by
    dsimp only [Gen.V, Gen.hostOps0]
    after_results
    rfl
  refine (congrFun e1 (ix3 e (0 : Fin 1) j)).trans ?_
  refine shapeCast_apply _ shapeCasts_S100x256_S100x1x256 (ix3 e (0 : Fin 1) j) (ix2 e j) ?_
  rw [Shape.rowMajor_val_two, Shape.rowMajor_val_three]; simp

end Cert.KernelIdeal.Host

end
-- ==== Proof.KernelWhole.lean ====
/-
  From blocks to the array.  Grid point `t` works on estimators `4t … 4t+3`: every window's block at `t` is rows
  `4t … 4t+3` of its array (the gathered batch's, along its second axis), so what point `t` writes back is block `t` of the
  specification's output of the gathered batch and the twelve weight and bias arguments; the 25 blocks tile the 100
  estimators, so after the run the output array is that function everywhere.
-/
import proofs.«401742_j11493332484141_2_alg».proof.Proof.Gen.KernelIdeal.Value
import proofs.«401742_j11493332484141_2_alg».proof.Proof.KernelBlock
import proofs.«401742_j11493332484141_2_alg».proof.Proof.KernelHost

set_option maxRecDepth 16384

noncomputable section

namespace Cert.KernelIdeal.Whole

open Cert.KernelIdeal Cert.KernelIdeal.Gen Cert.KernelIdeal.Value Cert.KernelIdeal.Block Cert.KernelIdeal.Host
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Which rows of each array a grid point's blocks are -/

/-- The output's block index at point `t` is `(t, 0, 0)` with `t < 25`. -/
theorem idx13 : ∀ t : Fin cfg0.N, win0_13.index t (0 : Fin 3) < 25 ∧ win0_13.index t (1 : Fin 3) = 0 ∧ win0_13.index t (2 : Fin 3) = 0 :=
  (by decide +kernel : ∀ t : Fin grid0.N, _)

/-- Estimator `e` of the tile at point `t`: number `4t + e` of the hundred. -/
def est (t : Fin cfg0.N) (e : Fin 4) : Fin 100 :=
  ⟨win0_13.index t (0 : Fin 3) * 4 + e.val, by have := (idx13 t).1; have := e.isLt; omega⟩

theorem emb13 (t : Fin cfg0.N) (e : Fin 4) (r : Fin 4096) (d : Fin 256) :
    ((cfg0.win 13).blk t).view.emb (ix3 e r d) = (ix3 (est t e) r d : S100x4096x256.Idx) := by
  obtain ⟨_, h1, h2⟩ := idx13 t
  funext a; apply Fin.ext
  match a with
  | ⟨0, _⟩ => show win0_13.index t (0 : Fin 3) * 4 + 1 * e.val = win0_13.index t (0 : Fin 3) * 4 + e.val; omega
  | ⟨1, _⟩ => show win0_13.index t (1 : Fin 3) * 4096 + 1 * r.val = r.val; omega
  | ⟨2, _⟩ => show win0_13.index t (2 : Fin 3) * 256 + 1 * d.val = d.val; omega

/-- The gathered batch's block at `t`: all rows, estimators `4t … 4t+3` on the second axis. -/
theorem idx0 : ∀ t : Fin cfg0.N, win0_0.index t (0 : Fin 4) = 0 ∧ win0_0.index t (1 : Fin 4) = win0_13.index t (0 : Fin 3)
    ∧ win0_0.index t (2 : Fin 4) = 0 ∧ win0_0.index t (3 : Fin 4) = 0 :=
  (by decide +kernel : ∀ t : Fin grid0.N, _)
theorem emb0 (t : Fin cfg0.N) (r : Fin 4096) (e : Fin 4) (z : Fin 1) (f : Fin 32) :
    ((cfg0.win 0).blk t).view.emb (ix4 r e z f) = (ix4 r (est t e) z f : S4096x100x1x32.Idx) := by
  obtain ⟨h0, h1, h2, h3⟩ := idx0 t
  funext a; apply Fin.ext
  match a with
  | ⟨0, _⟩ => show win0_0.index t (0 : Fin 4) * 4096 + 1 * r.val = r.val; omega
  | ⟨1, _⟩ => show win0_0.index t (1 : Fin 4) * 4 + 1 * e.val = win0_13.index t (0 : Fin 3) * 4 + e.val; omega
  | ⟨2, _⟩ => show win0_0.index t (2 : Fin 4) * 1 + 1 * z.val = z.val; omega
  | ⟨3, _⟩ => show win0_0.index t (3 : Fin 4) * 32 + 1 * f.val = f.val; omega

/-! The twelve weight and bias windows: block `t` is slabs `4t … 4t+3` along the first axis, whole on the other two. -/

/-- A block of four slabs whose block index is `(T, 0, 0)`: if coordinate `a` of the place of a block entry is the block
    index times the block's extent plus the entry's own coordinate, then entry `(e, k, n)` sits at `(4T + e, k, n)`. -/
theorem rows3 {N n1 n2 : Nat} (v : (⟨3, ![4, n1, n2]⟩ : Shape).Idx → (⟨3, ![N, n1, n2]⟩ : Shape).Idx) (I : Fin 3 → Nat) (T : Nat)
    (hv : ∀ (y : (⟨3, ![4, n1, n2]⟩ : Shape).Idx) (a : Fin 3), (v y a).val = I a * (![4, n1, n2] : Fin 3 → Nat) a + 1 * (y a).val)
    (h : I 0 = T ∧ I 1 = 0 ∧ I 2 = 0) (e : Fin 4) (k : Fin n1) (n : Fin n2) (E : Fin N) (hE : E.val = T * 4 + e.val) :
    v (ix3 e k n) = ix3 E k n := by
  obtain ⟨h0, h1, h2⟩ := h
  funext a; apply Fin.ext
  match a with
  | ⟨0, _⟩ => exact (hv (ix3 e k n) 0).trans (by show I 0 * 4 + 1 * e.val = E.val; omega)
  | ⟨1, _⟩ => exact (hv (ix3 e k n) 1).trans (by show I 1 * n1 + 1 * k.val = k.val; rw [h1]; omega)
  | ⟨2, _⟩ => exact (hv (ix3 e k n) 2).trans (by show I 2 * n2 + 1 * n.val = n.val; rw [h2]; omega)

theorem idx1 : ∀ t : Fin cfg0.N, win0_1.index t (0 : Fin 3) = win0_13.index t (0 : Fin 3) ∧ win0_1.index t (1 : Fin 3) = 0 ∧ win0_1.index t (2 : Fin 3) = 0 :=
  (by decide +kernel : ∀ t : Fin grid0.N, _)
theorem emb1 (t : Fin cfg0.N) (e : Fin 4) (k : Fin 32) (n : Fin 16) :
    ((cfg0.win 1).blk t).view.emb (ix3 e k n) = (ix3 (est t e) k n : S100x32x16.Idx) :=
  rows3 (fun y => ((cfg0.win 1).blk t).view.emb y) (win0_1.index t) _ (fun _ _ => rfl) (idx1 t) e k n (est t e) rfl

theorem idx2 : ∀ t : Fin cfg0.N, win0_2.index t (0 : Fin 3) = win0_13.index t (0 : Fin 3) ∧ win0_2.index t (1 : Fin 3) = 0 ∧ win0_2.index t (2 : Fin 3) = 0 :=
  (by decide +kernel : ∀ t : Fin grid0.N, _)
theorem emb2 (t : Fin cfg0.N) (e : Fin 4) (k : Fin 1) (n : Fin 16) :
    ((cfg0.win 2).blk t).view.emb (ix3 e k n) = (ix3 (est t e) k n : S100x1x16.Idx) :=
  rows3 (fun y => ((cfg0.win 2).blk t).view.emb y) (win0_2.index t) _ (fun _ _ => rfl) (idx2 t) e k n (est t e) rfl

theorem idx3 : ∀ t : Fin cfg0.N, win0_3.index t (0 : Fin 3) = win0_13.index t (0 : Fin 3) ∧ win0_3.index t (1 : Fin 3) = 0 ∧ win0_3.index t (2 : Fin 3) = 0 :=
  (by decide +kernel : ∀ t : Fin grid0.N, _)
theorem emb3 (t : Fin cfg0.N) (e : Fin 4) (k : Fin 16) (n : Fin 8) :
    ((cfg0.win 3).blk t).view.emb (ix3 e k n) = (ix3 (est t e) k n : S100x16x8.Idx) :=
  rows3 (fun y => ((cfg0.win 3).blk t).view.emb y) (win0_3.index t) _ (fun _ _ => rfl) (idx3 t) e k n (est t e) rfl

theorem idx4 : ∀ t : Fin cfg0.N, win0_4.index t (0 : Fin 3) = win0_13.index t (0 : Fin 3) ∧ win0_4.index t (1 : Fin 3) = 0 ∧ win0_4.index t (2 : Fin 3) = 0 :=
  (by decide +kernel : ∀ t : Fin grid0.N, _)
theorem emb4 (t : Fin cfg0.N) (e : Fin 4) (k : Fin 1) (n : Fin 8) :
    ((cfg0.win 4).blk t).view.emb (ix3 e k n) = (ix3 (est t e) k n : S100x1x8.Idx) :=
  rows3 (fun y => ((cfg0.win 4).blk t).view.emb y) (win0_4.index t) _ (fun _ _ => rfl) (idx4 t) e k n (est t e) rfl

theorem idx5 : ∀ t : Fin cfg0.N, win0_5.index t (0 : Fin 3) = win0_13.index t (0 : Fin 3) ∧ win0_5.index t (1 : Fin 3) = 0 ∧ win0_5.index t (2 : Fin 3) = 0 :=
  (by decide +kernel : ∀ t : Fin grid0.N, _)
theorem emb5 (t : Fin cfg0.N) (e : Fin 4) (k : Fin 8) (n : Fin 8) :
    ((cfg0.win 5).blk t).view.emb (ix3 e k n) = (ix3 (est t e) k n : S100x8x8.Idx) :=
  rows3 (fun y => ((cfg0.win 5).blk t).view.emb y) (win0_5.index t) _ (fun _ _ => rfl) (idx5 t) e k n (est t e) rfl

theorem idx6 : ∀ t : Fin cfg0.N, win0_6.index t (0 : Fin 3) = win0_13.index t (0 : Fin 3) ∧ win0_6.index t (1 : Fin 3) = 0 ∧ win0_6.index t (2 : Fin 3) = 0 :=
  (by decide +kernel : ∀ t : Fin grid0.N, _)
theorem emb6 (t : Fin cfg0.N) (e : Fin 4) (k : Fin 1) (n : Fin 8) :
    ((cfg0.win 6).blk t).view.emb (ix3 e k n) = (ix3 (est t e) k n : S100x1x8.Idx) :=
  rows3 (fun y => ((cfg0.win 6).blk t).view.emb y) (win0_6.index t) _ (fun _ _ => rfl) (idx6 t) e k n (est t e) rfl

theorem idx7 : ∀ t : Fin cfg0.N, win0_7.index t (0 : Fin 3) = win0_13.index t (0 : Fin 3) ∧ win0_7.index t (1 : Fin 3) = 0 ∧ win0_7.index t (2 : Fin 3) = 0 :=
  (by decide +kernel : ∀ t : Fin grid0.N, _)
theorem emb7 (t : Fin cfg0.N) (e : Fin 4) (k : Fin 8) (n : Fin 16) :
    ((cfg0.win 7).blk t).view.emb (ix3 e k n) = (ix3 (est t e) k n : S100x8x16.Idx) :=
  rows3 (fun y => ((cfg0.win 7).blk t).view.emb y) (win0_7.index t) _ (fun _ _ => rfl) (idx7 t) e k n (est t e) rfl

theorem idx8 : ∀ t : Fin cfg0.N, win0_8.index t (0 : Fin 3) = win0_13.index t (0 : Fin 3) ∧ win0_8.index t (1 : Fin 3) = 0 ∧ win0_8.index t (2 : Fin 3) = 0 :=
  (by decide +kernel : ∀ t : Fin grid0.N, _)
theorem emb8 (t : Fin cfg0.N) (e : Fin 4) (k : Fin 1) (n : Fin 16) :
    ((cfg0.win 8).blk t).view.emb (ix3 e k n) = (ix3 (est t e) k n : S100x1x16.Idx) :=
  rows3 (fun y => ((cfg0.win 8).blk t).view.emb y) (win0_8.index t) _ (fun _ _ => rfl) (idx8 t) e k n (est t e) rfl

theorem idx9 : ∀ t : Fin cfg0.N, win0_9.index t (0 : Fin 3) = win0_13.index t (0 : Fin 3) ∧ win0_9.index t (1 : Fin 3) = 0 ∧ win0_9.index t (2 : Fin 3) = 0 :=
  (by decide +kernel : ∀ t : Fin grid0.N, _)
theorem emb9 (t : Fin cfg0.N) (e : Fin 4) (k : Fin 16) (n : Fin 32) :
    ((cfg0.win 9).blk t).view.emb (ix3 e k n) = (ix3 (est t e) k n : S100x16x32.Idx) :=
  rows3 (fun y => ((cfg0.win 9).blk t).view.emb y) (win0_9.index t) _ (fun _ _ => rfl) (idx9 t) e k n (est t e) rfl

theorem idx10 : ∀ t : Fin cfg0.N, win0_10.index t (0 : Fin 3) = win0_13.index t (0 : Fin 3) ∧ win0_10.index t (1 : Fin 3) = 0 ∧ win0_10.index t (2 : Fin 3) = 0 :=
  (by decide +kernel : ∀ t : Fin grid0.N, _)
theorem emb10 (t : Fin cfg0.N) (e : Fin 4) (k : Fin 1) (n : Fin 32) :
    ((cfg0.win 10).blk t).view.emb (ix3 e k n) = (ix3 (est t e) k n : S100x1x32.Idx) :=
  rows3 (fun y => ((cfg0.win 10).blk t).view.emb y) (win0_10.index t) _ (fun _ _ => rfl) (idx10 t) e k n (est t e) rfl

theorem idx11 : ∀ t : Fin cfg0.N, win0_11.index t (0 : Fin 3) = win0_13.index t (0 : Fin 3) ∧ win0_11.index t (1 : Fin 3) = 0 ∧ win0_11.index t (2 : Fin 3) = 0 :=
  (by decide +kernel : ∀ t : Fin grid0.N, _)
theorem emb11 (t : Fin cfg0.N) (e : Fin 4) (k : Fin 32) (n : Fin 256) :
    ((cfg0.win 11).blk t).view.emb (ix3 e k n) = (ix3 (est t e) k n : S100x32x256.Idx) :=
  rows3 (fun y => ((cfg0.win 11).blk t).view.emb y) (win0_11.index t) _ (fun _ _ => rfl) (idx11 t) e k n (est t e) rfl

theorem idx12 : ∀ t : Fin cfg0.N, win0_12.index t (0 : Fin 3) = win0_13.index t (0 : Fin 3) ∧ win0_12.index t (1 : Fin 3) = 0 ∧ win0_12.index t (2 : Fin 3) = 0 :=
  (by decide +kernel : ∀ t : Fin grid0.N, _)
theorem emb12 (t : Fin cfg0.N) (e : Fin 4) (k : Fin 1) (n : Fin 256) :
    ((cfg0.win 12).blk t).view.emb (ix3 e k n) = (ix3 (est t e) k n : S100x1x256.Idx) :=
  rows3 (fun y => ((cfg0.win 12).blk t).view.emb y) (win0_12.index t) _ (fun _ _ => rfl) (idx12 t) e k n (est t e) rfl

/-! ## What point `t` writes back -/

/-- The thirteen input blocks at point `t`, each named at its literal shape. -/
abbrev blk0 (c : Dev nD) (t : Fin cfg0.N) : Vec Ideal S4096x4x1x32 .f32 := iblk m c 0 t
abbrev blk1 (c : Dev nD) (t : Fin cfg0.N) : Vec Ideal S4x32x16 .f32 := iblk m c 1 t
abbrev blk2 (c : Dev nD) (t : Fin cfg0.N) : Vec Ideal S4x1x16 .f32 := iblk m c 2 t
abbrev blk3 (c : Dev nD) (t : Fin cfg0.N) : Vec Ideal S4x16x8 .f32 := iblk m c 3 t
abbrev blk4 (c : Dev nD) (t : Fin cfg0.N) : Vec Ideal S4x1x8 .f32 := iblk m c 4 t
abbrev blk5 (c : Dev nD) (t : Fin cfg0.N) : Vec Ideal S4x8x8 .f32 := iblk m c 5 t
abbrev blk6 (c : Dev nD) (t : Fin cfg0.N) : Vec Ideal S4x1x8 .f32 := iblk m c 6 t
abbrev blk7 (c : Dev nD) (t : Fin cfg0.N) : Vec Ideal S4x8x16 .f32 := iblk m c 7 t
abbrev blk8 (c : Dev nD) (t : Fin cfg0.N) : Vec Ideal S4x1x16 .f32 := iblk m c 8 t
abbrev blk9 (c : Dev nD) (t : Fin cfg0.N) : Vec Ideal S4x16x32 .f32 := iblk m c 9 t
abbrev blk10 (c : Dev nD) (t : Fin cfg0.N) : Vec Ideal S4x1x32 .f32 := iblk m c 10 t
abbrev blk11 (c : Dev nD) (t : Fin cfg0.N) : Vec Ideal S4x32x256 .f32 := iblk m c 11 t
abbrev blk12 (c : Dev nD) (t : Fin cfg0.N) : Vec Ideal S4x1x256 .f32 := iblk m c 12 t

/-- The function the output array ends as: the specification's output of the gathered batch and the arguments. -/
def whole (c : Dev nD) : FVec Ideal S100x4096x256 .f32 :=
  Cert.Bag.out (gathered m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Entry by entry, the block function of the input blocks at `t` is the whole-array function at the entry's place in the
    array: each block entry is the array's entry `4t + e` rows down. -/
theorem point_eq (c : Dev nD) (t : Fin cfg0.N) (y : S4x4096x256.Idx) :
    blockOut (blk0 m c t) (blk1 m c t) (blk2 m c t) (blk3 m c t) (blk4 m c t) (blk5 m c t) (blk6 m c t) (blk7 m c t) (blk8 m c t) (blk9 m c t) (blk10 m c t) (blk11 m c t) (blk12 m c t) y = whole m c (((cfg0.win 13).blk t).view.emb y) := by
  obtain ⟨e, r, d, rfl⟩ : ∃ (e : Fin 4) (r : Fin 4096) (d : Fin 256), y = ix3 e r d := ⟨y 0, y 1, y 2, eq_ix3 y⟩
  rw [emb13 t e r d]
  have k0 : ∀ (r : Fin 4096) (f : Fin 32), blk0 m c t (ix4 r e (0 : Fin 1) f) = gathered m c (ix3 r (est t e) f) := fun r f => by
    show V m c main_v7 (((cfg0.win 0).blk t).view.emb (ix4 r e (0 : Fin 1) f)) = _
    rw [emb0 t r e 0 f, xg_at]
  have k1 : ∀ (f : Fin 32) (h : Fin 16), blk1 m c t (ix3 e f h) = (m ((c : Thread nD τ).loc main_arg2)) (ix3 (est t e) f h) := fun f h => by
    show V m c main_arg2 (((cfg0.win 1).blk t).view.emb (ix3 e f h)) = _
    rw [emb1 t e f h, V_main_arg2]
  have k2 : ∀ (h : Fin 16), blk2 m c t (ix3 e (0 : Fin 1) h) = (m ((c : Thread nD τ).loc main_arg3)) (ix2 (est t e) h) := fun h => by
    show V m c main_v8 (((cfg0.win 2).blk t).view.emb (ix3 e (0 : Fin 1) h)) = _
    rw [emb2 t e 0 h, be0_at]
  have k3 : ∀ (h : Fin 16) (l : Fin 8), blk3 m c t (ix3 e h l) = (m ((c : Thread nD τ).loc main_arg4)) (ix3 (est t e) h l) := fun h l => by
    show V m c main_arg4 (((cfg0.win 3).blk t).view.emb (ix3 e h l)) = _
    rw [emb3 t e h l, V_main_arg4]
  have k4 : ∀ (l : Fin 8), blk4 m c t (ix3 e (0 : Fin 1) l) = (m ((c : Thread nD τ).loc main_arg5)) (ix2 (est t e) l) := fun l => by
    show V m c main_v9 (((cfg0.win 4).blk t).view.emb (ix3 e (0 : Fin 1) l)) = _
    rw [emb4 t e 0 l, be1_at]
  have k5 : ∀ (l p : Fin 8), blk5 m c t (ix3 e l p) = (m ((c : Thread nD τ).loc main_arg6)) (ix3 (est t e) l p) := fun l p => by
    show V m c main_arg6 (((cfg0.win 5).blk t).view.emb (ix3 e l p)) = _
    rw [emb5 t e l p, V_main_arg6]
  have k6 : ∀ (p : Fin 8), blk6 m c t (ix3 e (0 : Fin 1) p) = (m ((c : Thread nD τ).loc main_arg7)) (ix2 (est t e) p) := fun p => by
    show V m c main_v10 (((cfg0.win 6).blk t).view.emb (ix3 e (0 : Fin 1) p)) = _
    rw [emb6 t e 0 p, bl_at]
  have k7 : ∀ (p : Fin 8) (h : Fin 16), blk7 m c t (ix3 e p h) = (m ((c : Thread nD τ).loc main_arg8)) (ix3 (est t e) p h) := fun p h => by
    show V m c main_arg8 (((cfg0.win 7).blk t).view.emb (ix3 e p h)) = _
    rw [emb7 t e p h, V_main_arg8]
  have k8 : ∀ (h : Fin 16), blk8 m c t (ix3 e (0 : Fin 1) h) = (m ((c : Thread nD τ).loc main_arg9)) (ix2 (est t e) h) := fun h => by
    show V m c main_v11 (((cfg0.win 8).blk t).view.emb (ix3 e (0 : Fin 1) h)) = _
    rw [emb8 t e 0 h, bd0_at]
  have k9 : ∀ (h : Fin 16) (f : Fin 32), blk9 m c t (ix3 e h f) = (m ((c : Thread nD τ).loc main_arg10)) (ix3 (est t e) h f) := fun h f => by
    show V m c main_arg10 (((cfg0.win 9).blk t).view.emb (ix3 e h f)) = _
    rw [emb9 t e h f, V_main_arg10]
  have k10 : ∀ (f : Fin 32), blk10 m c t (ix3 e (0 : Fin 1) f) = (m ((c : Thread nD τ).loc main_arg11)) (ix2 (est t e) f) := fun f => by
    show V m c main_v12 (((cfg0.win 10).blk t).view.emb (ix3 e (0 : Fin 1) f)) = _
    rw [emb10 t e 0 f, bd1_at]
  have k11 : ∀ (f : Fin 32) (d : Fin 256), blk11 m c t (ix3 e f d) = (m ((c : Thread nD τ).loc main_arg12)) (ix3 (est t e) f d) := fun f d => by
    show V m c main_arg12 (((cfg0.win 11).blk t).view.emb (ix3 e f d)) = _
    rw [emb11 t e f d, V_main_arg12]
  have k12 : ∀ (d : Fin 256), blk12 m c t (ix3 e (0 : Fin 1) d) = (m ((c : Thread nD τ).loc main_arg13)) (ix2 (est t e) d) := fun d => by
    show V m c main_v13 (((cfg0.win 12).blk t).view.emb (ix3 e (0 : Fin 1) d)) = _
    rw [emb12 t e 0 d, bo_at]
  show Ideal.logistic (Cert.Bag.chain (fun r f => blk0 m c t (ix4 r e (0 : Fin 1) f))
      (fun f h => blk1 m c t (ix3 e f h)) (fun h => blk2 m c t (ix3 e (0 : Fin 1) h))
      (fun h l => blk3 m c t (ix3 e h l)) (fun l => blk4 m c t (ix3 e (0 : Fin 1) l))
      (fun l p => blk5 m c t (ix3 e l p)) (fun p => blk6 m c t (ix3 e (0 : Fin 1) p))
      (fun p h => blk7 m c t (ix3 e p h)) (fun h => blk8 m c t (ix3 e (0 : Fin 1) h))
      (fun h f => blk9 m c t (ix3 e h f)) (fun f => blk10 m c t (ix3 e (0 : Fin 1) f))
      (fun f d => blk11 m c t (ix3 e f d)) (fun d => blk12 m c t (ix3 e (0 : Fin 1) d)) r d)
    = Ideal.logistic (Cert.Bag.chain (fun r f => gathered m c (ix3 r (est t e) f))
      (fun f h => (m ((c : Thread nD τ).loc main_arg2)) (ix3 (est t e) f h)) (fun h => (m ((c : Thread nD τ).loc main_arg3)) (ix2 (est t e) h))
      (fun h l => (m ((c : Thread nD τ).loc main_arg4)) (ix3 (est t e) h l)) (fun l => (m ((c : Thread nD τ).loc main_arg5)) (ix2 (est t e) l))
      (fun l p => (m ((c : Thread nD τ).loc main_arg6)) (ix3 (est t e) l p)) (fun p => (m ((c : Thread nD τ).loc main_arg7)) (ix2 (est t e) p))
      (fun p h => (m ((c : Thread nD τ).loc main_arg8)) (ix3 (est t e) p h)) (fun h => (m ((c : Thread nD τ).loc main_arg9)) (ix2 (est t e) h))
      (fun h f => (m ((c : Thread nD τ).loc main_arg10)) (ix3 (est t e) h f)) (fun f => (m ((c : Thread nD τ).loc main_arg11)) (ix2 (est t e) f))
      (fun f d => (m ((c : Thread nD τ).loc main_arg12)) (ix3 (est t e) f d)) (fun d => (m ((c : Thread nD τ).loc main_arg13)) (ix2 (est t e) d)) r d)
  simp only [k0, k1, k2, k3, k4, k5, k6, k7, k8, k9, k10, k11, k12]

/-- WHAT POINT `t` WRITES BACK is block `t` of the whole-array function. -/
theorem flushed_eq (c : Dev nD) (t : Fin cfg0.N) :
    (dats m 0 c).flushed 13 t = ((cfg0.win 13).blk t).view.read (Elt Ideal) (whole m c) := by
  rw [flushed13]
  funext y
  exact (congrFun (out_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) y).trans (point_eq m c t y)

/-! ## The blocks tile the array -/

/-- An index of the array is in point `t`'s block iff each coordinate is in the block's range on its axis. -/
theorem mem_blk (t : Fin cfg0.N) (i : S100x4096x256.Idx) :
    i ∈ ((cfg0.win 13).blk t).view.set ↔ ∀ a : Fin 3, win0_13.index t a * S4x4096x256.size a ≤ (i a).val ∧ (i a).val < win0_13.index t a * S4x4096x256.size a + S4x4096x256.size a := by
  show i ∈ ((View.whole main_v14).slice (win0_13.rect t)).set ↔ _
  rw [View.set_slice_whole, Rect.mem_set_unit]
  exact Iff.rfl

/-- Every tile of four estimators is some point's. -/
theorem tile_onto : ∀ q : Fin 25, ∃ t : Fin cfg0.N, win0_13.index t = ![q.val, 0, 0] :=
  (by decide +kernel : ∀ q : Fin 25, ∃ t : Fin grid0.N, win0_13.index t = ![q.val, 0, 0])

/-- Every entry of the output array is in the block of the point that owns its estimator's tile. -/
theorem covered (i : S100x4096x256.Idx) :
    ∃ t : Fin cfg0.N, (cfg0.win 13).flush t = true ∧ i ∈ ((cfg0.win 13).blk t).view.set := by
  have hi0 : (i 0).val < 100 := (i 0).isLt
  have hi1 : (i 1).val < 4096 := (i 1).isLt
  have hi2 : (i 2).val < 256 := (i 2).isLt
  obtain ⟨t, ht⟩ := tile_onto ⟨(i 0).val / 4, by omega⟩
  have q0 : win0_13.index t (0 : Fin 3) = (i 0).val / 4 := congrFun ht 0
  have q1 : win0_13.index t (1 : Fin 3) = 0 := congrFun ht 1
  have q2 : win0_13.index t (2 : Fin 3) = 0 := congrFun ht 2
  refine ⟨t, flush0_13 t, ?_⟩
  rw [mem_blk]
  intro a
  match a with
  | ⟨0, _⟩ => show win0_13.index t (0 : Fin 3) * 4 ≤ (i 0).val ∧ (i 0).val < win0_13.index t (0 : Fin 3) * 4 + 4; omega
  | ⟨1, _⟩ => show win0_13.index t (1 : Fin 3) * 4096 ≤ (i 1).val ∧ (i 1).val < win0_13.index t (1 : Fin 3) * 4096 + 4096; omega
  | ⟨2, _⟩ => show win0_13.index t (2 : Fin 3) * 256 ≤ (i 2).val ∧ (i 2).val < win0_13.index t (2 : Fin 3) * 256 + 256; omega

/-- THE ARRAY after the run is the whole-array function. -/
theorem final (c : Dev nD) : (dats m 0 c).arrAt 13 cfg0.N = whole m c :=
  (dats m 0 c).arrAt_eq_of_cover 13 (whole m c) (fun t _ => flushed_eq m c t) (fun i => covered i)

/-! ## The run, read -/

/-- The kernel's run: the output array ends as the whole-array function of the arguments, the arguments unchanged. -/
theorem run : θ_run defs (onTc (τ := τ) (main (F := Ideal))) ⟨m, fun _ => 0, ρ⟩ fun r => ∀ c : Dev nD,
      r.2.mem ((c : Thread nD τ).loc main_v14) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (run_blocks m ρ)

end Cert.KernelIdeal.Whole

end
-- ==== Proof.RefValue.lean ====
/-
  The reference's result is the specification: read one operation at a time, the batched products are the plain sums
  over the contracted axis at slab `e`, the biases broadcast down the batch, the cuts at zero the same maximum, and the
  reference's `1 / (1 + exp(-v))` is the logistic.
-/
import proofs.«401742_j11493332484141_2_alg».proof.Proof.Gen.ReferenceIdeal.Read
import proofs.«401742_j11493332484141_2_alg».proof.Proof.Bag
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## Index arithmetic

A batched product over slab `e` reads its left operand at `(e, r, k)` and its right operand at `(e, k, n)`; a bias,
broadcast twice, is read at `(e, n)` whatever the batch row `r`; the transposition of the gathered batch swaps the first
two coordinates. -/

theorem tidx7 (e : Fin 100) (r : Fin 4096) (k : Fin 32) :
    idx_main_v7 (ix3 e r k) = ix3 r e k :=
  funext fun a => Fin.ext (by match a with | ⟨0, _⟩ => rfl | ⟨1, _⟩ => rfl | ⟨2, _⟩ => rfl)

theorem lidx8 (e : Fin 100) (r : Fin 4096) (n : Fin 16) (k : Fin 32) :
    lidx_main_v8 (ix3 e r n) k = ix3 e r k :=
  funext fun a => Fin.ext (by match a with | ⟨0, _⟩ => rfl | ⟨1, _⟩ => rfl | ⟨2, _⟩ => rfl)
theorem ridx8 (e : Fin 100) (r : Fin 4096) (n : Fin 16) (k : Fin 32) :
    ridx_main_v8 (ix3 e r n) k = ix3 e k n :=
  funext fun a => Fin.ext (by match a with | ⟨0, _⟩ => rfl | ⟨1, _⟩ => rfl | ⟨2, _⟩ => rfl)
theorem bidx10 (e : Fin 100) (r : Fin 4096) (n : Fin 16) :
    idx_main_v9 (idx_main_v10 (ix3 e r n)) = ix2 e n :=
  funext fun a => Fin.ext (by match a with | ⟨0, _⟩ => rfl | ⟨1, _⟩ => rfl)

theorem lidx12 (e : Fin 100) (r : Fin 4096) (n : Fin 8) (k : Fin 16) :
    lidx_main_v12 (ix3 e r n) k = ix3 e r k :=
  funext fun a => Fin.ext (by match a with | ⟨0, _⟩ => rfl | ⟨1, _⟩ => rfl | ⟨2, _⟩ => rfl)
theorem ridx12 (e : Fin 100) (r : Fin 4096) (n : Fin 8) (k : Fin 16) :
    ridx_main_v12 (ix3 e r n) k = ix3 e k n :=
  funext fun a => Fin.ext (by match a with | ⟨0, _⟩ => rfl | ⟨1, _⟩ => rfl | ⟨2, _⟩ => rfl)
theorem bidx14 (e : Fin 100) (r : Fin 4096) (n : Fin 8) :
    idx_main_v13 (idx_main_v14 (ix3 e r n)) = ix2 e n :=
  funext fun a => Fin.ext (by match a with | ⟨0, _⟩ => rfl | ⟨1, _⟩ => rfl)

theorem lidx17 (e : Fin 100) (r : Fin 4096) (n : Fin 8) (k : Fin 8) :
    lidx_main_v17 (ix3 e r n) k = ix3 e r k :=
  funext fun a => Fin.ext (by match a with | ⟨0, _⟩ => rfl | ⟨1, _⟩ => rfl | ⟨2, _⟩ => rfl)
theorem ridx17 (e : Fin 100) (r : Fin 4096) (n : Fin 8) (k : Fin 8) :
    ridx_main_v17 (ix3 e r n) k = ix3 e k n :=
  funext fun a => Fin.ext (by match a with | ⟨0, _⟩ => rfl | ⟨1, _⟩ => rfl | ⟨2, _⟩ => rfl)
theorem bidx19 (e : Fin 100) (r : Fin 4096) (n : Fin 8) :
    idx_main_v18 (idx_main_v19 (ix3 e r n)) = ix2 e n :=
  funext fun a => Fin.ext (by match a with | ⟨0, _⟩ => rfl | ⟨1, _⟩ => rfl)

theorem lidx22 (e : Fin 100) (r : Fin 4096) (n : Fin 16) (k : Fin 8) :
    lidx_main_v22 (ix3 e r n) k = ix3 e r k :=
  funext fun a => Fin.ext (by match a with | ⟨0, _⟩ => rfl | ⟨1, _⟩ => rfl | ⟨2, _⟩ => rfl)
theorem ridx22 (e : Fin 100) (r : Fin 4096) (n : Fin 16) (k : Fin 8) :
    ridx_main_v22 (ix3 e r n) k = ix3 e k n :=
  funext fun a => Fin.ext (by match a with | ⟨0, _⟩ => rfl | ⟨1, _⟩ => rfl | ⟨2, _⟩ => rfl)
theorem bidx24 (e : Fin 100) (r : Fin 4096) (n : Fin 16) :
    idx_main_v23 (idx_main_v24 (ix3 e r n)) = ix2 e n :=
  funext fun a => Fin.ext (by match a with | ⟨0, _⟩ => rfl | ⟨1, _⟩ => rfl)

theorem lidx26 (e : Fin 100) (r : Fin 4096) (n : Fin 32) (k : Fin 16) :
    lidx_main_v26 (ix3 e r n) k = ix3 e r k :=
  funext fun a => Fin.ext (by match a with | ⟨0, _⟩ => rfl | ⟨1, _⟩ => rfl | ⟨2, _⟩ => rfl)
theorem ridx26 (e : Fin 100) (r : Fin 4096) (n : Fin 32) (k : Fin 16) :
    ridx_main_v26 (ix3 e r n) k = ix3 e k n :=
  funext fun a => Fin.ext (by match a with | ⟨0, _⟩ => rfl | ⟨1, _⟩ => rfl | ⟨2, _⟩ => rfl)
theorem bidx28 (e : Fin 100) (r : Fin 4096) (n : Fin 32) :
    idx_main_v27 (idx_main_v28 (ix3 e r n)) = ix2 e n :=
  funext fun a => Fin.ext (by match a with | ⟨0, _⟩ => rfl | ⟨1, _⟩ => rfl)

theorem lidx31 (e : Fin 100) (r : Fin 4096) (n : Fin 256) (k : Fin 32) :
    lidx_main_v31 (ix3 e r n) k = ix3 e r k :=
  funext fun a => Fin.ext (by match a with | ⟨0, _⟩ => rfl | ⟨1, _⟩ => rfl | ⟨2, _⟩ => rfl)
theorem ridx31 (e : Fin 100) (r : Fin 4096) (n : Fin 256) (k : Fin 32) :
    ridx_main_v31 (ix3 e r n) k = ix3 e k n :=
  funext fun a => Fin.ext (by match a with | ⟨0, _⟩ => rfl | ⟨1, _⟩ => rfl | ⟨2, _⟩ => rfl)
theorem bidx33 (e : Fin 100) (r : Fin 4096) (n : Fin 256) :
    idx_main_v32 (idx_main_v33 (ix3 e r n)) = ix2 e n :=
  funext fun a => Fin.ext (by match a with | ⟨0, _⟩ => rfl | ⟨1, _⟩ => rfl)

section Stages

variable (x0 : (⟨S4096x256, .f32⟩ : BufTy).Contents (Elt Ideal)) (x1 : (⟨S100x32, .i32⟩ : BufTy).Contents (Elt Ideal))
  (x2 : (⟨S100x32x16, .f32⟩ : BufTy).Contents (Elt Ideal)) (x3 : (⟨S100x16, .f32⟩ : BufTy).Contents (Elt Ideal))
  (x4 : (⟨S100x16x8, .f32⟩ : BufTy).Contents (Elt Ideal)) (x5 : (⟨S100x8, .f32⟩ : BufTy).Contents (Elt Ideal))
  (x6 : (⟨S100x8x8, .f32⟩ : BufTy).Contents (Elt Ideal)) (x7 : (⟨S100x8, .f32⟩ : BufTy).Contents (Elt Ideal))
  (x8 : (⟨S100x8x16, .f32⟩ : BufTy).Contents (Elt Ideal)) (x9 : (⟨S100x16, .f32⟩ : BufTy).Contents (Elt Ideal))
  (x10 : (⟨S100x16x32, .f32⟩ : BufTy).Contents (Elt Ideal)) (x11 : (⟨S100x32, .f32⟩ : BufTy).Contents (Elt Ideal))
  (x12 : (⟨S100x32x256, .f32⟩ : BufTy).Contents (Elt Ideal)) (x13 : (⟨S100x256, .f32⟩ : BufTy).Contents (Elt Ideal))

/-! ## The six affine layers

A batched product followed by the broadcast bias is `dense` of slab `e` of the stage before it, whatever family `A`
that slab has been shown to be. The first layer's input is the transposed gathered batch, read at `(r, e, k)`. -/

theorem affine0 (e : Fin 100) (r : Fin 4096) (n : Fin 16) :
    val_main_v11 (F := Ideal) x0 x1 x2 x3 (ix3 e r n)
      = Cert.Bag.dense (fun r f => val_main_v6 (F := Ideal) x0 x1 (ix3 r e f)) (fun k n => x2 (ix3 e k n))
          (fun n => x3 (ix2 e n)) r n := by
  rw [val_main_v11_apply, val_main_v8_apply, val_main_v10_apply, val_main_v9_apply, bidx10]
  show _ = (∑ k : Fin 32, val_main_v6 (F := Ideal) x0 x1 (ix3 r e k) * x2 (ix3 e k n)) + x3 (ix2 e n)
  refine congrArg (· + x3 (ix2 e n)) (Finset.sum_congr rfl fun k _ => ?_)
  rw [lidx8, ridx8, val_main_v7_apply, tidx7]

theorem affine1 (e : Fin 100) (A : Fin 4096 → Fin 16 → EReal)
    (hA : ∀ (r : Fin 4096) (k : Fin 16), val_main_v11 (F := Ideal) x0 x1 x2 x3 (ix3 e r k) = A r k)
    (r : Fin 4096) (n : Fin 8) :
    val_main_v15 (F := Ideal) x0 x1 x2 x3 x4 x5 (ix3 e r n)
      = Cert.Bag.dense A (fun k n => x4 (ix3 e k n)) (fun n => x5 (ix2 e n)) r n := by
  rw [val_main_v15_apply, val_main_v12_apply, val_main_v14_apply, val_main_v13_apply, bidx14]
  show _ = (∑ k : Fin 16, A r k * x4 (ix3 e k n)) + x5 (ix2 e n)
  refine congrArg (· + x5 (ix2 e n)) (Finset.sum_congr rfl fun k _ => ?_)
  rw [lidx12, ridx12, hA]

theorem affine2 (e : Fin 100) (A : Fin 4096 → Fin 8 → EReal)
    (hA : ∀ (r : Fin 4096) (k : Fin 8), val_main_v16 (F := Ideal) x0 x1 x2 x3 x4 x5 (ix3 e r k) = A r k)
    (r : Fin 4096) (n : Fin 8) :
    val_main_v20 (F := Ideal) x0 x1 x2 x3 x4 x5 x6 x7 (ix3 e r n)
      = Cert.Bag.dense A (fun k n => x6 (ix3 e k n)) (fun n => x7 (ix2 e n)) r n := by
  rw [val_main_v20_apply, val_main_v17_apply, val_main_v19_apply, val_main_v18_apply, bidx19]
  show _ = (∑ k : Fin 8, A r k * x6 (ix3 e k n)) + x7 (ix2 e n)
  refine congrArg (· + x7 (ix2 e n)) (Finset.sum_congr rfl fun k _ => ?_)
  rw [lidx17, ridx17, hA]

theorem affine3 (e : Fin 100) (A : Fin 4096 → Fin 8 → EReal)
    (hA : ∀ (r : Fin 4096) (k : Fin 8), val_main_v21 (F := Ideal) x0 x1 x2 x3 x4 x5 x6 x7 (ix3 e r k) = A r k)
    (r : Fin 4096) (n : Fin 16) :
    val_main_v25 (F := Ideal) x0 x1 x2 x3 x4 x5 x6 x7 x8 x9 (ix3 e r n)
      = Cert.Bag.dense A (fun k n => x8 (ix3 e k n)) (fun n => x9 (ix2 e n)) r n := by
  rw [val_main_v25_apply, val_main_v22_apply, val_main_v24_apply, val_main_v23_apply, bidx24]
  show _ = (∑ k : Fin 8, A r k * x8 (ix3 e k n)) + x9 (ix2 e n)
  refine congrArg (· + x9 (ix2 e n)) (Finset.sum_congr rfl fun k _ => ?_)
  rw [lidx22, ridx22, hA]

theorem affine4 (e : Fin 100) (A : Fin 4096 → Fin 16 → EReal)
    (hA : ∀ (r : Fin 4096) (k : Fin 16),
      val_main_v25 (F := Ideal) x0 x1 x2 x3 x4 x5 x6 x7 x8 x9 (ix3 e r k) = A r k)
    (r : Fin 4096) (n : Fin 32) :
    val_main_v29 (F := Ideal) x0 x1 x2 x3 x4 x5 x6 x7 x8 x9 x10 x11 (ix3 e r n)
      = Cert.Bag.dense A (fun k n => x10 (ix3 e k n)) (fun n => x11 (ix2 e n)) r n := by
  rw [val_main_v29_apply, val_main_v26_apply, val_main_v28_apply, val_main_v27_apply, bidx28]
  show _ = (∑ k : Fin 16, A r k * x10 (ix3 e k n)) + x11 (ix2 e n)
  refine congrArg (· + x11 (ix2 e n)) (Finset.sum_congr rfl fun k _ => ?_)
  rw [lidx26, ridx26, hA]

theorem affine5 (e : Fin 100) (A : Fin 4096 → Fin 32 → EReal)
    (hA : ∀ (r : Fin 4096) (k : Fin 32),
      val_main_v30 (F := Ideal) x0 x1 x2 x3 x4 x5 x6 x7 x8 x9 x10 x11 (ix3 e r k) = A r k)
    (r : Fin 4096) (n : Fin 256) :
    val_main_v34 (F := Ideal) x0 x1 x2 x3 x4 x5 x6 x7 x8 x9 x10 x11 x12 x13 (ix3 e r n)
      = Cert.Bag.dense A (fun k n => x12 (ix3 e k n)) (fun n => x13 (ix2 e n)) r n := by
  rw [val_main_v34_apply, val_main_v31_apply, val_main_v33_apply, val_main_v32_apply, bidx33]
  show _ = (∑ k : Fin 32, A r k * x12 (ix3 e k n)) + x13 (ix2 e n)
  refine congrArg (· + x13 (ix2 e n)) (Finset.sum_congr rfl fun k _ => ?_)
  rw [lidx31, ridx31, hA]

/-! ## The cuts at zero

The maximum against the broadcast zero word is `cut0` of the stage before; the word itself is never evaluated. -/

theorem cut1 (e : Fin 100) (A : Fin 4096 → Fin 8 → EReal)
    (hA : ∀ (r : Fin 4096) (k : Fin 8), val_main_v15 (F := Ideal) x0 x1 x2 x3 x4 x5 (ix3 e r k) = A r k)
    (r : Fin 4096) (n : Fin 8) :
    val_main_v16 (F := Ideal) x0 x1 x2 x3 x4 x5 (ix3 e r n) = Cert.Bag.cut0 A r n := by
  rw [val_main_v16_apply, val_main_call0_v0_apply, val_main_call0_cst_apply, hA]
  rfl

theorem cut2 (e : Fin 100) (A : Fin 4096 → Fin 8 → EReal)
    (hA : ∀ (r : Fin 4096) (k : Fin 8), val_main_v20 (F := Ideal) x0 x1 x2 x3 x4 x5 x6 x7 (ix3 e r k) = A r k)
    (r : Fin 4096) (n : Fin 8) :
    val_main_v21 (F := Ideal) x0 x1 x2 x3 x4 x5 x6 x7 (ix3 e r n) = Cert.Bag.cut0 A r n := by
  rw [val_main_v21_apply, val_main_call1_v0_apply, val_main_call1_cst_apply, hA]
  rfl

theorem cut4 (e : Fin 100) (A : Fin 4096 → Fin 32 → EReal)
    (hA : ∀ (r : Fin 4096) (k : Fin 32),
      val_main_v29 (F := Ideal) x0 x1 x2 x3 x4 x5 x6 x7 x8 x9 x10 x11 (ix3 e r k) = A r k)
    (r : Fin 4096) (n : Fin 32) :
    val_main_v30 (F := Ideal) x0 x1 x2 x3 x4 x5 x6 x7 x8 x9 x10 x11 (ix3 e r n) = Cert.Bag.cut0 A r n := by
  rw [val_main_v30_apply, val_main_call2_v0_apply, val_main_call2_cst_apply, hA]
  rfl

/-! ## The squashing

Negate, exponential, one plus, one over: on the extended reals that composite is the logistic, and the word of the two
ones is `1`. -/

theorem squash (i : S100x4096x256.Idx) :
    val_main_v40 (F := Ideal) x0 x1 x2 x3 x4 x5 x6 x7 x8 x9 x10 x11 x12 x13 i
      = Ideal.logistic (val_main_v34 (F := Ideal) x0 x1 x2 x3 x4 x5 x6 x7 x8 x9 x10 x11 x12 x13 i) := by
  rw [val_main_v40_apply, val_main_v39_apply, val_main_cst_1_apply, val_main_v38_apply, val_main_v37_apply,
    val_main_cst_apply, val_main_v36_apply, val_main_v35_apply, Ideal.ofBits_def, Ideal.ofBits_one_f32]
  rfl

end Stages

/-- The reference's last stage, as a function of its fourteen arguments, is the specification's output of the gathered
    batch (the reference's own gather stage, left unopened) and the twelve weight and bias arrays. -/
theorem ref_eq (x0 : (⟨S4096x256, .f32⟩ : BufTy).Contents (Elt Ideal)) (x1 : (⟨S100x32, .i32⟩ : BufTy).Contents (Elt Ideal))
    (x2 : (⟨S100x32x16, .f32⟩ : BufTy).Contents (Elt Ideal)) (x3 : (⟨S100x16, .f32⟩ : BufTy).Contents (Elt Ideal))
    (x4 : (⟨S100x16x8, .f32⟩ : BufTy).Contents (Elt Ideal)) (x5 : (⟨S100x8, .f32⟩ : BufTy).Contents (Elt Ideal))
    (x6 : (⟨S100x8x8, .f32⟩ : BufTy).Contents (Elt Ideal)) (x7 : (⟨S100x8, .f32⟩ : BufTy).Contents (Elt Ideal))
    (x8 : (⟨S100x8x16, .f32⟩ : BufTy).Contents (Elt Ideal)) (x9 : (⟨S100x16, .f32⟩ : BufTy).Contents (Elt Ideal))
    (x10 : (⟨S100x16x32, .f32⟩ : BufTy).Contents (Elt Ideal)) (x11 : (⟨S100x32, .f32⟩ : BufTy).Contents (Elt Ideal))
    (x12 : (⟨S100x32x256, .f32⟩ : BufTy).Contents (Elt Ideal)) (x13 : (⟨S100x256, .f32⟩ : BufTy).Contents (Elt Ideal)) :
    val_main_v40 (F := Ideal) x0 x1 x2 x3 x4 x5 x6 x7 x8 x9 x10 x11 x12 x13 =
      Cert.Bag.out (val_main_v6 (F := Ideal) x0 x1) x2 x3 x4 x5 x6 x7 x8 x9 x10 x11 x12 x13 := by
  funext i
  obtain ⟨e, r, d, rfl⟩ : ∃ (e : Fin 100) (r : Fin 4096) (d : Fin 256), i = ix3 e r d := ⟨i 0, i 1, i 2, eq_ix3 i⟩
  have h0 := affine0 x0 x1 x2 x3 e
  have h1 := affine1 x0 x1 x2 x3 x4 x5 e _ h0
  have c1 := cut1 x0 x1 x2 x3 x4 x5 e _ h1
  have h2 := affine2 x0 x1 x2 x3 x4 x5 x6 x7 e _ c1
  have c2 := cut2 x0 x1 x2 x3 x4 x5 x6 x7 e _ h2
  have h3 := affine3 x0 x1 x2 x3 x4 x5 x6 x7 x8 x9 e _ c2
  have h4 := affine4 x0 x1 x2 x3 x4 x5 x6 x7 x8 x9 x10 x11 e _ h3
  have c4 := cut4 x0 x1 x2 x3 x4 x5 x6 x7 x8 x9 x10 x11 e _ h4
  rw [squash, affine5 x0 x1 x2 x3 x4 x5 x6 x7 x8 x9 x10 x11 x12 x13 e _ c4 r d]
  rfl

end Cert.ReferenceIdeal.RefValue

end
-- ==== Proof.lean ====
/-
  A bagged autoencoder: one hundred independent six-layer networks, each fed its own 32 gathered features of a shared
  batch of 4096 rows, the kernel working on four estimators per grid point against the reference's six batched products.

  On the extended reals both programs compute one function of the arguments (Proof/Bag.lean): entry `(e, r, d)` of the
  result is the logistic of estimator `e`'s chain of affine layers — each a plain sum over the contracted axis plus a
  bias — with the cut at zero after the second, third and fifth.  No algebraic law beyond re-indexing the sums is used,
  so finiteness of the inputs is never opened.  The gather and the normalisation of negative indices before it are the
  same host operations in both programs and stay one unopened term.

  Kernel side: one estimator's stored value read at an entry is the chain of the loaded slabs (Proof/KernelChain.lean,
  Proof/KernelChainAt.lean); the four stores of a grid point tile its output block (Proof/KernelBlock.lean); each window's
  block at point `t` is rows `4t … 4t+3` of its array, the arrays written by @main's host operations read back to the
  arguments (Proof/KernelHost.lean), and the 25 blocks tile the hundred estimators (Proof/KernelWhole.lean).
  Reference side: the program read one operation at a time is the same function (Proof/RefValue.lean); its
  `1 / (1 + exp(-v))` is the logistic.  The three frames are the generated runs; the idealization rewrote nothing.
-/
import proofs.«401742_j11493332484141_2_alg».proof.Defs
import proofs.«401742_j11493332484141_2_alg».proof.Proof.Gen.Kernel
import proofs.«401742_j11493332484141_2_alg».proof.Proof.Gen.Kernel.Skeleton
import proofs.«401742_j11493332484141_2_alg».proof.Proof.Gen.Kernel.Launch
import proofs.«401742_j11493332484141_2_alg».proof.Proof.Gen.Kernel.Points
import proofs.«401742_j11493332484141_2_alg».proof.Proof.Gen.Kernel.Frame
import proofs.«401742_j11493332484141_2_alg».proof.Proof.Gen.KernelIdeal
import proofs.«401742_j11493332484141_2_alg».proof.Proof.Gen.KernelIdeal.Skeleton
import proofs.«401742_j11493332484141_2_alg».proof.Proof.Gen.KernelIdeal.Launch
import proofs.«401742_j11493332484141_2_alg».proof.Proof.Gen.KernelIdeal.Points
import proofs.«401742_j11493332484141_2_alg».proof.Proof.Gen.KernelIdeal.Frame
import proofs.«401742_j11493332484141_2_alg».proof.Proof.Gen.ReferenceIdeal
import proofs.«401742_j11493332484141_2_alg».proof.Proof.Gen.Pre_finite_inputs
import proofs.«401742_j11493332484141_2_alg».proof.Proof.Gen.KernelIdeal.Value
import proofs.«401742_j11493332484141_2_alg».proof.Proof.Gen.ReferenceIdeal.Run
import proofs.«401742_j11493332484141_2_alg».proof.Proof.Gen.ReferenceIdeal.Read
import proofs.«401742_j11493332484141_2_alg».proof.Proof.KernelWhole
import proofs.«401742_j11493332484141_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the fourteen arguments both programs end with the output array at the specification's
    function of those arguments: the kernel by its blocks, the reference operation by operation; the gathered batch is
    the same term on both sides. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v40_eq, Cert.ReferenceIdeal.RefValue.ref_eq,
    a0, a1, a2, a3, a4, a5, a6, a7, a8, a9, a10, a11, a12, a13]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
